-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S16384x128 : Shape := ⟨2, ![16384, 128]⟩
abbrev S16384 : Shape := ⟨1, ![16384]⟩
abbrev S512x512 : Shape := ⟨2, ![512, 512]⟩
abbrev S512 : Shape := ⟨1, ![512]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384 : S_.BroadcastsInDim S16384 (![] : Fin 0 → Fin S16384.rank)
  reducesTo_S16384_S_d0 : S16384.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg3 : IVec S16384 32) (main_arg5 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg3 main_v24
  let main_c_9 : IVec S_ 1 := constantI S_ 1 1#1
  let main_v26 : IVec S_ 1 := (fun x v => Host.reduce IntOp.andi x v reducesTo_S16384_S_d0 h_S_) main_v25 main_c_9
  let main_v27 : IVec S_ 1 := andi main_v23 main_v26
  let main_c_10 : IVec S_ 32 := constantI S_ 32 512#32
  let main_v28 : IVec S16384 32 := broadcastInDim S16384 ![] bcast_S_S16384 main_c_10
  let main_v29 : IVec S16384 1 := cmpi .slt main_arg3 main_v28
  let main_c_11 : IVec S_ 1 := constantI S_ 1 1#1
  let main_v30 : IVec S_ 1 := (fun x v => Host.reduce IntOp.andi x v reducesTo_S16384_S_d0 h_S_) main_v29 main_c_11
  let main_v31 : IVec S_ 1 := andi main_v27 main_v30
  main_v31

def fn {F : FTy → Type} [FloatOps F] (main_arg0 : FVec F S4096x128 .f32) (main_arg1 : FVec F S16384x128 .f32) (main_arg2 : FVec F S16384 .f32) (main_arg3 : IVec S16384 32) (main_arg4 : FVec F S512x512 .f32) (main_arg5 : FVec F S512 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg3 main_arg5 main_v13 main_v16
-- ==== Kernel.lean ====
abbrev S4096x128 : Shape := ⟨2, ![4096, 128]⟩
abbrev S16384x128 : Shape := ⟨2, ![16384, 128]⟩
abbrev S16384 : Shape := ⟨1, ![16384]⟩
abbrev S512x512 : Shape := ⟨2, ![512, 512]⟩
abbrev S512 : Shape := ⟨1, ![512]⟩
abbrev S_ : Shape := ⟨0, ![]⟩
abbrev S1x16384 : Shape := ⟨2, ![1, 16384]⟩
abbrev S16384x1 : Shape := ⟨2, ![16384, 1]⟩
abbrev S1x512 : Shape := ⟨2, ![1, 512]⟩
abbrev S16384x512 : Shape := ⟨2, ![16384, 512]⟩
abbrev S4096x512 : Shape := ⟨2, ![4096, 512]⟩
abbrev S1024x128 : Shape := ⟨2, ![1024, 128]⟩
abbrev S1x1024 : Shape := ⟨2, ![1, 1024]⟩
abbrev S1024x512 : Shape := ⟨2, ![1024, 512]⟩
abbrev S1024x1 : Shape := ⟨2, ![1024, 1]⟩
abbrev S1024 : Shape := ⟨1, ![1024]⟩
abbrev S512x128 : Shape := ⟨2, ![512, 128]⟩
abbrev S128x512 : Shape := ⟨2, ![128, 512]⟩

abbrev nBuf : Space → Nat
  | .hbm => 31
  | .vmem => 16
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S16384, .f32⟩
  | .hbm, ⟨3, _⟩ => ⟨S16384, .i32⟩
  | .hbm, ⟨4, _⟩ => ⟨S512x512, .f32⟩
  | .hbm, ⟨5, _⟩ => ⟨S512, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384, .f32⟩
  | .hbm, ⟨10, _⟩ => ⟨S1x16384, .f32⟩
  | .hbm, ⟨11, _⟩ => ⟨S16384x128, .f32⟩
  | .hbm, ⟨12, _⟩ => ⟨S_, .f32⟩
  | .hbm, ⟨13, _⟩ => ⟨S16384, .f32⟩
  | .hbm, ⟨14, _⟩ => ⟨S1x16384, .f32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S1x512, .i32⟩
  | .hbm, ⟨25, _⟩ => ⟨S16384x512, .i32⟩
  | .hbm, ⟨26, _⟩ => ⟨S16384x512, .i32⟩
  | .hbm, ⟨27, _⟩ => ⟨S16384x512, .i1⟩
  | .hbm, ⟨28, _⟩ => ⟨S16384x512, .bf16⟩
  | .hbm, ⟨29, _⟩ => ⟨S1x512, .f32⟩
  | .hbm, ⟨30, _⟩ => ⟨S4096x512, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x512, .bf16⟩
  | .local _ .vmem, ⟨9, _⟩ => ⟨S1024x512, .bf16⟩
  | .local _ .vmem, ⟨10, _⟩ => ⟨S512x512, .f32⟩
  | .local _ .vmem, ⟨11, _⟩ => ⟨S1x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v66 : BitVec 1 := Scalar.cmpi .eq arg1 c15_i32
  let v67 : BitVec 32 := Scalar.extui v66
  let c0_i32_36 : BitVec 32 := 0#32
  let v68 : BitVec 1 := Scalar.cmpi .ne v67 c0_i32_36
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bcast_S_S16384 : S_.BroadcastsInDim S16384 (![] : Fin 0 → Fin S16384.rank)
  shapeCasts_S16384_S1x16384 : S16384.ShapeCasts S1x16384
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  bcast_S1x512_S16384x512_0_1 : S1x512.BroadcastsInDim S16384x512 (![0, 1] : Fin 2 → Fin S16384x512.rank)
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  inb_S1024x128_S512x128_0_0 : ∀ a, (![0, 0] : Fin 2 → Nat) a + S512x128.size a ≤ S1024x128.size a
  h_S512x128 : 0 < S512x128.numel
  transposes_S512x128_p1_0_S128x512 : S512x128.Transposes [1, 0] S128x512
  inb_S1x1024_S1x512_0_0 : ∀ a, (![0, 0] : Fin 2 → Nat) a + S1x512.size a ≤ S1x1024.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  inb_S1024x512_S512x512_0_0 : ∀ a, (![0, 0] : Fin 2 → Nat) a + S512x512.size a ≤ S1024x512.size a
  h_S512x512 : 0 < S512x512.numel
  shapeCasts_S512x512_S512x512 : S512x512.ShapeCasts S512x512
  inb_S1024x128_S512x128_512_0 : ∀ a, (![512, 0] : Fin 2 → Nat) a + S512x128.size a ≤ S1024x128.size a
  inb_S1x1024_S1x512_0_512 : ∀ a, (![0, 512] : Fin 2 → Nat) a + S1x512.size a ≤ S1x1024.size a
  inb_S1024x512_S512x512_512_0 : ∀ a, (![512, 0] : Fin 2 → Nat) a + S512x512.size a ≤ S1024x512.size a
  inb_S512x512_S512x512_0_0 : ∀ a, (![0, 0] : Fin 2 → Nat) a + S512x512.size a ≤ S512x512.size a
  transposes_S512x512_p1_0_S512x512 : S512x512.Transposes [1, 0] S512x512
  inb_S1x512_S1x512_0_0 : ∀ a, (![0, 0] : Fin 2 → Nat) a + S1x512.size a ≤ S1x512.size a
  dot_S1024x128_S128x512_S1024x512_1_0_0_1_n_n_wf : DotDims.WF S1024x128 S128x512 S1024x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S16384x128.size a
  hwx0_1 : ∀ i : grid0.Coords, EltTy.bits .f32 = 32 ∨ (Rect.block (s := S16384x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S16384x512.size a
  hwx0_4 : ∀ i : grid0.Coords, EltTy.bits .bf16 = 32 ∨ (Rect.block (s := S16384x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S4096x512.size a
  hwx0_7 : ∀ i : grid0.Coords, EltTy.bits .f32 = 32 ∨ (Rect.block (s := S4096x512) S1024x512.size (cc0_transform_7 i) (hinb0_7 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4096x128 : Shape := ⟨2, ![4096, 128]⟩
abbrev S16384x128 : Shape := ⟨2, ![16384, 128]⟩
abbrev S16384 : Shape := ⟨1, ![16384]⟩
abbrev S512x512 : Shape := ⟨2, ![512, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x16384 : Shape := ⟨2, ![1, 16384]⟩
abbrev S4096x16384 : Shape := ⟨2, ![4096, 16384]⟩
abbrev S128x16384 : Shape := ⟨2, ![128, 16384]⟩
abbrev S16384x4096 : Shape := ⟨2, ![16384, 4096]⟩
abbrev S512x4096 : Shape := ⟨2, ![512, 4096]⟩
abbrev S16384x1 : Shape := ⟨2, ![16384, 1]⟩
abbrev S4096x512 : Shape := ⟨2, ![4096, 512]⟩
abbrev S1x512 : Shape := ⟨2, ![1, 512]⟩

abbrev nBuf : Space → Nat
  | .hbm => 46
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S16384, .f32⟩
  | .hbm, ⟨3, _⟩ => ⟨S16384, .i32⟩
  | .hbm, ⟨4, _⟩ => ⟨S512x512, .f32⟩
  | .hbm, ⟨5, _⟩ => ⟨S512, .f32⟩
  | .hbm, ⟨6, _⟩ => ⟨S4096x128, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S16384x128, .f32⟩
  | .hbm, ⟨11, _⟩ => ⟨S_, .f32⟩
  | .hbm, ⟨12, _⟩ => ⟨S16384, .f32⟩
  | .hbm, ⟨13, _⟩ => ⟨S1x16384, .f32⟩
  | .hbm, ⟨14, _⟩ => ⟨S4096x16384, .f32⟩
  | .hbm, ⟨15, _⟩ => ⟨S4096x16384, .f32⟩
  | .hbm, ⟨16, _⟩ => ⟨S4096x16384, .f32⟩
  | .hbm, ⟨17, _⟩ => ⟨S_, .f32⟩
  | .hbm, ⟨18, _⟩ => ⟨S4096x128, .f32⟩
  | .hbm, ⟨19, _⟩ => ⟨S4096x128, .f32⟩
  | .hbm, ⟨20, _⟩ => ⟨S128x16384, .f32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S4096x16384, .f32⟩
  | .hbm, ⟨25, _⟩ => ⟨S4096x16384, .f32⟩
  | .hbm, ⟨26, _⟩ => ⟨S4096x16384, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S16384, .f32⟩
  | .hbm, ⟨31, _⟩ => ⟨S1x16384, .f32⟩
  | .hbm, ⟨32, _⟩ => ⟨S4096x16384, .f32⟩
  | .hbm, ⟨33, _⟩ => ⟨S4096x16384, .f32⟩
  | .hbm, ⟨34, _⟩ => ⟨S4096x16384, .f32⟩
  | .hbm, ⟨35, _⟩ => ⟨S16384x4096, .f32⟩
  | .hbm, ⟨36, _⟩ => ⟨S_, .f32⟩
  | .hbm, ⟨37, _⟩ => ⟨S512x4096, .f32⟩
  | .hbm, ⟨38, _⟩ => ⟨S16384x1, .i32⟩
  | .hbm, ⟨39, _⟩ => ⟨S512x4096, .f32⟩
  | .hbm, ⟨40, _⟩ => ⟨S4096x512, .f32⟩
  | .hbm, ⟨41, _⟩ => ⟨S512x512, .f32⟩
  | .hbm, ⟨42, _⟩ => ⟨S4096x512, .f32⟩
  | .hbm, ⟨43, _⟩ => ⟨S1x512, .f32⟩
  | .hbm, ⟨44, _⟩ => ⟨S4096x512, .f32⟩
  | .hbm, ⟨45, _⟩ => ⟨S4096x512, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  reducesTo_S16384x128_S16384_d1 : S16384x128.ReducesTo [1] S16384
  bcast_S16384_S1x16384_1 : S16384.BroadcastsInDim S1x16384 (![1] : Fin 1 → Fin S1x16384.rank)
  bcast_S4096x1_S4096x16384_0_1 : S4096x1.BroadcastsInDim S4096x16384 (![0, 1] : Fin 2 → Fin S4096x16384.rank)
  bcast_S1x16384_S4096x16384_0_1 : S1x16384.BroadcastsInDim S4096x16384 (![0, 1] : Fin 2 → Fin S4096x16384.rank)
  bcast_S_S4096x128 : S_.BroadcastsInDim S4096x128 (![] : Fin 0 → Fin S4096x128.rank)
  transposes_S16384x128_S128x16384_1_0 : S16384x128.Transposes [1, 0] S128x16384
  bcast_S_S4096x16384 : S_.BroadcastsInDim S4096x16384 (![] : Fin 0 → Fin S4096x16384.rank)
  bcast_S_S16384 : S_.BroadcastsInDim S16384 (![] : Fin 0 → Fin S16384.rank)
  transposes_S4096x16384_S16384x4096_1_0 : S4096x16384.Transposes [1, 0] S16384x4096
  bcast_S_S512x4096 : S_.BroadcastsInDim S512x4096 (![] : Fin 0 → Fin S512x4096.rank)
  bcast_S16384_S16384x1_0 : S16384.BroadcastsInDim S16384x1 (![0] : Fin 1 → Fin S16384x1.rank)
  transposes_S512x4096_S4096x512_1_0 : S512x4096.Transposes [1, 0] S4096x512
  transposes_S512x512_S512x512_1_0 : S512x512.Transposes [1, 0] S512x512
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  dot_S4096x128_S128x16384_S4096x16384_1_0_0_1_n_n_wf : DotDims.WF S4096x128 S128x16384 S4096x16384 [1] [0] [0] [1] [] []
  scatter_S512x4096_S16384x1_S16384x4096_1_0_0_1_wf : ScatterDims.WF S512x4096 S16384x1 S16384x4096 [1] [0] [0] 1
  dot_S4096x512_S512x512_S4096x512_1_0_0_1_n_n_wf : DotDims.WF S4096x512 S512x512 S4096x512 [1] [0] [0] [1] [] []

variable [Facts₀]

def dot_S4096x128_S128x16384_S4096x16384_1_0_0_1_n_n : DotDims S4096x128 S128x16384 S4096x16384 where
  lhsContracting := [1]
  rhsContracting := [0]
  lhsNonContracting := [0]
  rhsNonContracting := [1]
  lhsBatch := []
  rhsBatch := []
  wf := dot_S4096x128_S128x16384_S4096x16384_1_0_0_1_n_n_wf
def scatter_S512x4096_S16384x1_S16384x4096_1_0_0_1 : ScatterDims S512x4096 S16384x1 S16384x4096 where
  updateWindowDims := [1]
  insertedWindowDims := [0]
  scatterDimsToOperandDims := [0]
  indexVectorDim := 1
  wf := scatter_S512x4096_S16384x1_S16384x4096_1_0_0_1_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf

class Facts : Prop extends Facts₀ where

variable [Facts]
-- ==== Proof.Spec.lean ====
/-
  The radial-basis network layer as one function of its six arguments, entry by entry over the extended reals.

  For a batch row b and a centre j:
    xx b      = Σ_k x[b,k]²                      the squared norm of the batch row
    cc j      = Σ_k c[j,k]²                      the squared norm of the centre
    sig2 j    = exp (2 · log_sigma[j])
    sqd b j   = max (xx b + cc j − 2 · Σ_k x[b,k] · c[j,k]) 0
    phi b j   = exp (−sqd b j · sig2 j)
  Every centre j belongs to the cluster node_id[j]; the activations of a cluster are added up,
    rbf b p   = Σ_{j : node_id[j] = p} phi b j,
  and a linear layer follows:
    out b o   = Σ_p rbf b p · W[o,p] + bias[o].
  The literals 2 and 0 are kept as the f32 words the programs carry.
-/
import Idealize.ShloMosaic.PureOps.Ideal
import Idealize.ShloMosaic.PureOps.Ideal.Laws
import Idealize.ShloMosaic.Lib.ValueIdx

open scoped BigOperators

noncomputable section

namespace Cert.Rbf

open Idealize.ShloMosaic Idealize.ShloMosaic.ValueIdx

/-- The f32 word of 2.0, read as an extended real. -/
def two : EReal := Ideal.ofBits .f32 0x40000000#32

variable (x : (⟨2, ![4096, 128]⟩ : Shape).Idx → EReal) (cen : (⟨2, ![16384, 128]⟩ : Shape).Idx → EReal)
  (ls : (⟨1, ![16384]⟩ : Shape).Idx → EReal) (nid : IVec ⟨1, ![16384]⟩ 32)
  (W : (⟨2, ![512, 512]⟩ : Shape).Idx → EReal) (bias : (⟨1, ![512]⟩ : Shape).Idx → EReal)

/-- Squared norm of batch row `b`. -/
def xx (b : Fin 4096) : EReal := ∑ k : Fin 128, x (ix2 b k) * x (ix2 b k)

/-- Squared norm of centre `j`. -/
def cc (j : Fin 16384) : EReal := ∑ k : Fin 128, cen (ix2 j k) * cen (ix2 j k)

/-- The inverse squared width of centre `j`. -/
def sig2 (j : Fin 16384) : EReal := Ideal.exp (two * ls (ix1 j))

/-- The inner product of batch row `b` with centre `j`. -/
def dot (b : Fin 4096) (j : Fin 16384) : EReal := ∑ k : Fin 128, x (ix2 b k) * cen (ix2 j k)

/-- The activation of centre `j` on batch row `b`. -/
def phi (b : Fin 4096) (j : Fin 16384) : EReal :=
  Ideal.exp (-(max ((xx x b + cc cen j) - two * dot x cen b j) 0) * sig2 ls j)

/-- The summed activation of cluster `p` on batch row `b`: the centres whose cluster number, read signed, is `p`. -/
def rbf (b : Fin 4096) (p : Fin 512) : EReal :=
  ∑ j : Fin 16384, if (nid (ix1 j)).toInt = (p.val : ℤ) then phi x cen ls b j else 0

/-- One entry of the layer's output. -/
def out (b : Fin 4096) (o : Fin 512) : EReal :=
  (∑ p : Fin 512, rbf x cen ls nid b p * W (ix2 o p)) + bias (ix1 o)

/-- The layer's output as an array. -/
def G : (⟨2, ![4096, 512]⟩ : Shape).Idx → EReal := fun i => out x cen ls nid W bias (i 0) (i 1)

theorem G_apply (b : Fin 4096) (o : Fin 512) : G x cen ls nid W bias (ix2 b o) = out x cen ls nid W bias b o := rfl

end Cert.Rbf

end
-- ==== Proof.LibERealSums.lean ====
/-
  Finite sums of extended reals. Multiplication by a FINITE nonnegative constant distributes over a sum of any
  extended reals (no sign condition on the terms: the only failures of distributivity on the extended reals have an
  infinite factor), so a weighted total of several sums taken block by block is the weighted total of the whole sums;
  and a sum over 16384 rows is the sum over 256 blocks of 64 rows.
-/
import Mathlib.Data.EReal.Operations
import Mathlib.Algebra.BigOperators.Fin
import Mathlib.Algebra.BigOperators.Ring.Finset

namespace ERealSums

open Finset

/-- A finite nonnegative constant times a finite sum is the sum of the products. -/
theorem mul_sum_of_finite {ι : Type*} (s : Finset ι) (c : EReal) (hc : 0 ≤ c) (hc' : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top hc hc', ih]

/-- The weighted total of four families of sums, taken term by term or after summing: the two weights finite and
    nonnegative. -/
theorem weighted_sum {ι : Type*} (s : Finset ι) (w v : EReal) (hw : 0 ≤ w) (hw' : w ≠ ⊤) (hv : 0 ≤ v) (hv' : v ≠ ⊤)
    (B O A A' C : ι → EReal) :
    ∑ i ∈ s, (w * B i + O i + v * (A i + A' i) + C i)
      = w * ∑ i ∈ s, B i + ∑ i ∈ s, O i + v * (∑ i ∈ s, A i + ∑ i ∈ s, A' i) + ∑ i ∈ s, C i := by
  rw [Finset.sum_add_distrib, Finset.sum_add_distrib, Finset.sum_add_distrib, ← mul_sum_of_finite s w hw hw',
    ← mul_sum_of_finite s v hv hv', Finset.sum_add_distrib]

/-- A sum over 16384 rows, block by block: 256 blocks of 64 rows. -/
theorem sum_blocks {M : Type*} [AddCommMonoid M] (f : Fin 16384 → M) :
    ∑ r, f r = ∑ t : Fin 256, ∑ n : Fin 64, f ⟨64 * t.val + n.val, by have := t.isLt; have := n.isLt; omega⟩ := by
  have e := Equiv.sum_comp (finProdFinEquiv (m := 256) (n := 64)) (fun r : Fin (256 * 64) => f r)
  rw [show (∑ r, f r) = ∑ r : Fin (256 * 64), f r from rfl, ← e, Fintype.sum_prod_type]
  refine Finset.sum_congr rfl fun t _ => Finset.sum_congr rfl fun n _ => congrArg f (Fin.ext ?_)
  show n.val + 64 * t.val = 64 * t.val + n.val
  omega

end ERealSums
-- ==== Proof.Algebra.lean ====
/-
  The arithmetic on the extended reals that joins the tiled, one-hot form of the layer to its plain form.

  • the f32 words 2.0 and 0.0 are the reals 2 and 0;
  • a finite nonnegative factor moves into a sum, so 2 · Σ_k a_k · c_k = Σ_k (2 · a_k) · c_k with no finiteness of the
    terms asked (on the extended reals distributivity only fails with an infinite factor);
  • 0 − v = −v;
  • a 0/1 factor selects: Σ_q g q · [c q] = Σ_q (if c q then g q else 0);
  • a running total over the first n positions, extended by two consecutive chunks of 512 positions, is the running
    total over the first n + 1024 positions.
-/
import Idealize.ShloMosaic.PureOps.Ideal
import Idealize.ShloMosaic.PureOps.Ideal.Laws
import Mathlib.Data.EReal.Operations
import Mathlib.Algebra.BigOperators.Fin
import Mathlib.Algebra.BigOperators.Ring.Finset
import proofs.«429590_j33217277067568_2_alg».proof.Proof.Spec
import proofs.«429590_j33217277067568_2_alg».proof.Proof.LibERealSums

open scoped BigOperators

noncomputable section

namespace Cert.Rbf

open Idealize.ShloMosaic

/-- The word of 2.0 is the real number 2. -/
theorem two_eq : two = ((2 : ℝ) : EReal) := by
  unfold two
  simp [Ideal.ofBits, Ideal.ieee, -EReal.coe_mul]
  norm_num

theorem two_nonneg : (0 : EReal) ≤ two := by rw [two_eq]; exact_mod_cast (by norm_num : (0 : ℝ) ≤ 2)

theorem two_ne_top : two ≠ ⊤ := by rw [two_eq]; exact EReal.coe_ne_top _

/-- Twice an inner product is the inner product with the first factor doubled, whatever the entries. -/
theorem two_mul_sum {n : Nat} (a c : Fin n → EReal) :
    two * ∑ k : Fin n, a k * c k = ∑ k : Fin n, (two * a k) * c k := by
  rw [ERealSums.mul_sum_of_finite Finset.univ two two_nonneg two_ne_top]
  exact Finset.sum_congr rfl fun k _ => (mul_assoc _ _ _).symm

/-- Subtracting from zero negates. -/
theorem zero_sub' (v : EReal) : (0 : EReal) - v = -v := by rw [sub_eq_add_neg, zero_add]

/-- A 0/1 factor selects the terms of a sum. -/
theorem sum_mul_ite {ι : Type} (s : Finset ι) (g : ι → EReal) (c : ι → Prop) [DecidablePred c] :
    ∑ q ∈ s, g q * (if c q then (1 : EReal) else 0) = ∑ q ∈ s, if c q then g q else 0 :=
  Finset.sum_congr rfl fun q _ => by split <;> simp

/-- Two consecutive chunks of 512 positions extend a running total over the first `n` positions to the first
    `n + 1024`. -/
theorem range_add_two_chunks {M : Type} [AddCommMonoid M] (f : ℕ → M) (n : ℕ) :
    (∑ j ∈ Finset.range n, f j + ∑ q : Fin 512, f (n + q.val)) + ∑ q : Fin 512, f (n + 512 + q.val)
      = ∑ j ∈ Finset.range (n + 1024), f j := by
  rw [show n + 1024 = (n + 512) + 512 from by omega, Finset.sum_range_add f (n + 512) 512, Finset.sum_range_add f n 512,
    Finset.sum_range (fun q => f (n + q)), Finset.sum_range (fun q => f (n + 512 + q))]

end Cert.Rbf

end
-- ==== Proof.HostSide.lean ====
/-
  What the kernel's program computes on the host before its one kernel launch, read entry by entry over the extended
  reals: the row of the centres' squared norms, the row of the inverse squared widths exp(2·log_sigma), the 0/1 cluster
  table (row j has its single 1 in column node_id[j] once node_id[j] is clamped into [0, 511]) and the bias as a row.
  The clamp does nothing to a cluster number already in [0, 512), which is what the precondition says of every entry of
  node_id; under it the table's entry (j, o) is 1 exactly when node_id[j], read signed, is o.
-/
import proofs.«429590_j33217277067568_2_alg».proof.Defs
import proofs.«429590_j33217277067568_2_alg».proof.Proof.Gen.KernelIdeal.Frame
import proofs.«429590_j33217277067568_2_alg».proof.Proof.Spec
import proofs.«429590_j33217277067568_2_alg».proof.Proof.Algebra
import Idealize.ShloMosaic.PureOps.Ideal.Laws
import Idealize.ShloMosaic.Lib.ValueIdx
import Idealize.ShloMosaic.Lib.Pipeline.Value
import Idealize.ShloMosaic.Lib.ValueLayout
import Idealize.ShloMosaic.Lib.ReduceAll
import Idealize.ShloMosaic.Lib.StableHlo.Predicate
import Idealize.ShloMosaic.Lib.StableHlo.Run

set_option maxRecDepth 16384

open scoped BigOperators

noncomputable section

namespace Cert.KernelIdeal.HostSide

open Cert.KernelIdeal Cert.KernelIdeal.Gen Idealize.ShloMosaic Idealize.ShloMosaic.TcCoe Idealize.SL.Sem
  Idealize.ShloMosaic.ValueIdx

variable (m : (ℓ : Loc nD τ sig) → Buf (Elt Ideal) ℓ)

/-! ## Words -/

/-- A 32-bit word that compares signed-greater-or-equal to the zero word is non-negative read signed. -/
theorem toInt_nonneg_of_sge {w : BitVec 32} (h : IntOp.cmpi .sge w 0#32 = 1#1) : 0 ≤ w.toInt := by
  have h' := IntOp.cmpi_sge.1 h
  have h0 : (0#32 : BitVec 32).toInt = 0 := by decide
  omega

/-- A 32-bit word that compares signed-less to the word of 512 is below 512 read signed. -/
theorem toInt_lt_of_slt {w : BitVec 32} (h : IntOp.cmpi .slt w 512#32 = 1#1) : w.toInt < 512 := by
  have h' := IntOp.cmpi_slt.1 h
  have h0 : (512#32 : BitVec 32).toInt = 512 := by decide
  omega

/-- Clamping a word already in [0, 512) into [0, 511] — the signed maximum of 0 and the word, then the signed minimum of
    511 and that — leaves it as it is. -/
theorem clamp_id {w : BitVec 32} (h0 : 0 ≤ w.toInt) (h1 : w.toInt < 512) :
    IntOp.minsi 511#32 (IntOp.maxsi 0#32 w) = w := by
  have z0 : (0#32 : BitVec 32).toInt = 0 := by decide
  have z1 : (511#32 : BitVec 32).toInt = 511 := by decide
  have hmax : IntOp.maxsi 0#32 w = w := by
    unfold IntOp.maxsi
    rw [if_neg]
    rw [BitVec.slt_iff_toInt_lt]; omega
  rw [hmax]
  unfold IntOp.minsi
  rw [if_neg]
  rw [BitVec.slt_iff_toInt_lt]; omega

/-- One 0/1 entry: the one-bit word "w is the word of o", read unsigned as a real, is 1 when w read signed is o and 0
    otherwise, for w in [0, 512) and o below 512. -/
theorem hot_word {w : BitVec 32} (h0 : 0 ≤ w.toInt) (h1 : w.toInt < 512) (o : Fin 512) :
    ((((IntOp.cmpi .eq w (BitVec.ofNat 32 o.val)).toNat : ℝ)) : EReal) = if w.toInt = (o.val : ℤ) then (1 : EReal) else 0 := by
  have ho : (BitVec.ofNat 32 o.val).toInt = (o.val : ℤ) :=
    StableHlo.Predicate.toInt_ofNat_small o.val (by have := o.isLt; omega)
  by_cases hw : w.toInt = (o.val : ℤ)
  · have e : w = BitVec.ofNat 32 o.val := BitVec.eq_of_toInt_eq (hw.trans ho.symm)
    rw [if_pos hw, IntOp.cmpi_eq.2 e]
    simp
  · have ne : ¬ IntOp.cmpi .eq w (BitVec.ofNat 32 o.val) = 1#1 :=
      fun hc => hw ((congrArg BitVec.toInt (IntOp.cmpi_eq.1 hc)).trans ho)
    rw [if_neg hw, eq_zero_of_ne_one ne]
    simp

/-! ## Indices: the two spellings of a rank-2 and of a rank-1 index by coordinates agree -/

theorem ij_eq_ix2 {n k : Nat} (p : Fin n) (q : Fin k) : StableHlo.Predicate.ij p q = ix2 p q := by
  funext a; match a with | ⟨0, _⟩ => rfl | ⟨1, _⟩ => rfl

theorem ofFin_eq_ix1 {n : Nat} (p : Fin n) : Shape.Idx.ofFin p = ix1 p := by
  funext a; match a with | ⟨0, _⟩ => rfl

/-! ## The precondition at one centre -/

/-- The precondition, decoded at one centre: its cluster number, read signed, lies in [0, 512). The precondition is a
    conjunction of one-bit words whose last two are "every entry of node_id is ≥ 0" and "every entry of node_id is < 512",
    each a conjunction over all entries: a conjunction that is 1 has every conjunct 1. -/
theorem nid_range [hP : Cert.Pre_finite_inputs.Facts] (h : Cert.Pre_KernelIdeal m) (c : Dev nD) (j : Fin 16384) :
    0 ≤ (m ((c : Thread nD τ).loc main_arg3) (ix1 j)).toInt ∧ (m ((c : Thread nD τ).loc main_arg3) (ix1 j)).toInt < 512 := by
  haveI : Subsingleton Cert.Pre_finite_inputs.S_.Idx := ⟨fun a b => funext fun d => d.elim0⟩
  have e := congrFun (h c) ValueIdx.ix0
  dsimp only [Cert.Pre_finite_inputs.fn, Cert.Pre_finite_inputs.fn_part1] at e
  obtain ⟨e1, hlt⟩ := IntOp.andi_eq_one.1 e
  obtain ⟨-, hge⟩ := IntOp.andi_eq_one.1 e1
  have g := Host.reduce_andi_all _ _ _ _ _ hge (ix1 j)
  have l := Host.reduce_andi_all _ _ _ _ _ hlt (ix1 j)
  exact ⟨toInt_nonneg_of_sge g, toInt_lt_of_slt l⟩

/-! ## The squared norms of the centres -/

/-- The host's sum of the squared entries along a centre's row, from the zero word: Σ_k c[j,k]². -/
theorem rowsq_apply (cen : FVec Ideal S16384x128 .f32) (j : Fin 16384) :
    Host.reduceAdd (F := Ideal) (mulf cen cen) (constant (F := Ideal) S_ .f32 0x00000000#32) reducesTo_S16384x128_S16384_d1 h_S_ (ix1 j)
      = ∑ k : Fin 128, cen (ix2 j k) * cen (ix2 j k) := by
  have hR : S16384x128.Reduces [1] S16384 := by decide
  show Ideal.hostReduceAdd reducesTo_S16384x128_S16384_d1 (mulf cen cen) (Ideal.ofBits .f32 0x00000000#32) (ix1 j) = _
  rw [Ideal.hostReduceAdd_single reducesTo_S16384x128_S16384_d1 hR]
  have z : Ideal.ofBits .f32 0x00000000#32 = 0 := by simp [Ideal.ofBits, Ideal.ieee]
  rw [z, zero_add]
  show ∑ k : Fin 128, (mulf cen cen) (hR.lift (ix1 j) k) = _
  refine Finset.sum_congr rfl fun k _ => ?_
  have hl : hR.lift (ix1 j) k = ix2 j k := by
    funext a; match a with | ⟨0, _⟩ => rfl | ⟨1, _⟩ => rfl
  rw [hl]; rfl

/-- The row of the centres' squared norms the region finds. -/
theorem V_cc (c : Dev nD) (z : Fin 1) (j : Fin 16384) :
    V m c main_v6 (ix2 z j) = Cert.Rbf.cc (m ((c : Thread nD τ).loc main_arg1)) j := by
  have e : (V m c main_v6 : S1x16384.Idx → EReal) = shapeCast S1x16384
      (Host.reduceAdd (F := Ideal) (mulf (m ((c : Thread nD τ).loc main_arg1)) (m ((c : Thread nD τ).loc main_arg1)))
        (constant (F := Ideal) S_ .f32 0x00000000#32) reducesTo_S16384x128_S16384_d1 h_S_) shapeCasts_S16384_S1x16384 := by
    dsimp only [Gen.V]
    simp only [Gen.hostOps0, Gen.hostOps0_1, Gen.hostOps0_2, Gen.hostOps0_3, List.flatten_cons, List.flatten_nil,
      List.append_nil, List.cons_append, List.nil_append]
    after_results
    rfl
  rw [e, shapeCast_a_1a_apply, rowsq_apply]
  rfl

/-! ## The inverse squared widths -/

/-- The row of inverse squared widths the region finds: exp of the broadcast word of 2 times log_sigma, entry by entry. -/
theorem V_sig (c : Dev nD) (z : Fin 1) (j : Fin 16384) :
    V m c main_v3 (ix2 z j) = Cert.Rbf.sig2 (m ((c : Thread nD τ).loc main_arg2)) j := by
  have e : (V m c main_v3 : S1x16384.Idx → EReal) = shapeCast S1x16384
      (Host.exp (F := Ideal) (mulf (broadcastInDim S16384 ![] bcast_S_S16384 (constant (F := Ideal) S_ .f32 0x40000000#32))
        (m ((c : Thread nD τ).loc main_arg2))))
      shapeCasts_S16384_S1x16384 := by
    dsimp only [Gen.V]
    simp only [Gen.hostOps0, Gen.hostOps0_1, Gen.hostOps0_2, Gen.hostOps0_3, List.flatten_cons, List.flatten_nil,
      List.append_nil, List.cons_append, List.nil_append]
    after_results
    rfl
  rw [e, shapeCast_a_1a_apply]
  rfl

/-! ## The cluster table -/

/-- The cluster table as the host builds it from a vector of cluster numbers, at one entry: the numbers clamped into
    [0, 511], laid down the rows, compared for equality with the column's position, the bit read as a number. For a
    cluster number already in [0, 512) the clamp does nothing, and the entry is 1 exactly when the number is the column. -/
theorem hot_apply (nid : IVec S16384 32) (j : Fin 16384) (o : Fin 512)
    (h0 : 0 ≤ (nid (ix1 j)).toInt) (h1 : (nid (ix1 j)).toInt < 512) :
    (uitofp (F := Ideal) .bf16 (cmpi .eq
      (broadcastInDim S16384x512 ![0, 1] bcast_S16384x1_S16384x512_0_1 (broadcastInDim S16384x1 ![0] bcast_S16384_S16384x1_0
        (minsi (broadcastInDim S16384 ![] bcast_S_S16384 (constantI S_ 32 511#32))
          (maxsi (broadcastInDim S16384 ![] bcast_S_S16384 (constantI S_ 32 0#32)) nid))))
      (broadcastInDim S16384x512 ![0, 1] bcast_S1x512_S16384x512_0_1 (iotaInDim S1x512 32 1))) : FVec Ideal S16384x512 .bf16) (ix2 j o)
      = if (nid (ix1 j)).toInt = (o.val : ℤ) then (1 : EReal) else 0 := by
  have hA := StableHlo.Predicate.bcast_rows bcast_S16384_S16384x1_0 bcast_S16384x1_S16384x512_0_1
    (minsi (broadcastInDim S16384 ![] bcast_S_S16384 (constantI S_ 32 511#32))
          (maxsi (broadcastInDim S16384 ![] bcast_S_S16384 (constantI S_ 32 0#32)) nid)) j o
  rw [ij_eq_ix2, ofFin_eq_ix1] at hA
  have hB := StableHlo.Predicate.bcast_of_row bcast_S1x512_S16384x512_0_1 (iotaInDim S1x512 32 1) j o
  rw [ij_eq_ix2] at hB
  show ((((IntOp.cmpi .eq (broadcastInDim S16384x512 ![0, 1] bcast_S16384x1_S16384x512_0_1 (broadcastInDim S16384x1 ![0] bcast_S16384_S16384x1_0
        (minsi (broadcastInDim S16384 ![] bcast_S_S16384 (constantI S_ 32 511#32))
          (maxsi (broadcastInDim S16384 ![] bcast_S_S16384 (constantI S_ 32 0#32)) nid))) (ix2 j o))
      (broadcastInDim S16384x512 ![0, 1] bcast_S1x512_S16384x512_0_1 (iotaInDim S1x512 32 1) (ix2 j o))).toNat : ℝ)) : EReal) = _
  rw [hA, hB]
  show ((((IntOp.cmpi .eq (IntOp.minsi 511#32 (IntOp.maxsi 0#32 (nid (ix1 j)))) (BitVec.ofNat 32 o.val)).toNat : ℝ)) : EReal) = _
  rw [clamp_id h0 h1]
  exact hot_word h0 h1 o

/-- The cluster table the region finds, under the range of the cluster numbers. -/
theorem V_hot (c : Dev nD)
    (hr : ∀ j : Fin 16384, 0 ≤ (m ((c : Thread nD τ).loc main_arg3) (ix1 j)).toInt ∧ (m ((c : Thread nD τ).loc main_arg3) (ix1 j)).toInt < 512)
    (j : Fin 16384) (o : Fin 512) :
    V m c main_v8 (ix2 j o) = if (m ((c : Thread nD τ).loc main_arg3) (ix1 j)).toInt = (o.val : ℤ) then (1 : EReal) else 0 := by
  have e : (V m c main_v8 : S16384x512.Idx → EReal) = uitofp (F := Ideal) .bf16 (cmpi .eq
      (broadcastInDim S16384x512 ![0, 1] bcast_S16384x1_S16384x512_0_1 (broadcastInDim S16384x1 ![0] bcast_S16384_S16384x1_0
        (minsi (broadcastInDim S16384 ![] bcast_S_S16384 (constantI S_ 32 511#32))
          (maxsi (broadcastInDim S16384 ![] bcast_S_S16384 (constantI S_ 32 0#32)) (m ((c : Thread nD τ).loc main_arg3))))))
      (broadcastInDim S16384x512 ![0, 1] bcast_S1x512_S16384x512_0_1 (iotaInDim S1x512 32 1))) := by
    dsimp only [Gen.V]
    simp only [Gen.hostOps0, Gen.hostOps0_1, Gen.hostOps0_2, Gen.hostOps0_3, List.flatten_cons, List.flatten_nil,
      List.append_nil, List.cons_append, List.nil_append]
    after_results
    rfl
  rw [e]
  exact hot_apply (m ((c : Thread nD τ).loc main_arg3)) j o (hr j).1 (hr j).2

/-! ## The bias -/

/-- The bias as a row. -/
theorem V_bias (c : Dev nD) (z : Fin 1) (o : Fin 512) :
    V m c main_v9 (ix2 z o) = m ((c : Thread nD τ).loc main_arg5) (ix1 o) := by
  have e : (V m c main_v9 : S1x512.Idx → EReal)
      = shapeCast S1x512 (m ((c : Thread nD τ).loc main_arg5) : S512.Idx → EReal) shapeCasts_S512_S1x512 := by
    dsimp only [Gen.V]
    simp only [Gen.hostOps0, Gen.hostOps0_1, Gen.hostOps0_2, Gen.hostOps0_3, List.flatten_cons, List.flatten_nil,
      List.append_nil, List.cons_append, List.nil_append]
    after_results
    rfl
  rw [e, shapeCast_a_1a_apply]

end Cert.KernelIdeal.HostSide

end
-- ==== Proof.LibRowSum.lean ====
/-
  A row sum kept as a column, read at the extended reals: for a rectangle `v : [n, d]`, the lane reduction over axis 1
  followed by the cast of the `[n]` result to `[n, 1]` (jnp's `sum(axis=1, keepdims=True)`) holds at `(r, 0)` the sum
  over the `d` columns of row `r`.
-/
import Idealize.ShloMosaic.PureOps.Ideal.Laws
import Idealize.ShloMosaic.Lib.Pipeline.Value
import Idealize.ShloMosaic.Lib.ValueIdx

open scoped BigOperators

namespace Idealize.ShloMosaic.RowSum

open Idealize.ShloMosaic Idealize.ShloMosaic.ValueIdx

/-- Over row `r` of the reduced vector, the source index with column `k` put back is `(r, k)`. -/
theorem lift_row {n d : Nat} (h : (⟨2, ![n, d]⟩ : Shape).Reduces [1] ⟨1, ![n]⟩) (r : Fin n) (k : Fin d) :
    h.lift (ix1 r) k = ix2 r k := by
  funext c
  refine Fin.ext ?_
  match c with
  | ⟨0, _⟩ => rfl
  | ⟨1, _⟩ => rfl

/-- The lane sum over axis 1 at row `r`: the sum of the row's `d` entries. -/
theorem rowSum_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (r : Fin n) :
    multiReduction .add [1] ⟨1, ![n]⟩ v acc h hφ hacc (ix1 r) = ∑ k : Fin d, v (ix2 r k) :=
  (Ideal.multiReduction_add_single v acc h hφ hacc (ix1 r)).trans
    (Finset.sum_congr rfl fun k _ => congrArg v (lift_row h r k))

/-- The same sum kept as a column `[n, 1]`, read at `(r, 0)`. -/
theorem rowSum_keepdims_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (hc : (⟨1, ![n]⟩ : Shape).ShapeCasts ⟨2, ![n, 1]⟩) (r : Fin n) (z : Fin 1) :
    shapeCast ⟨2, ![n, 1]⟩ (multiReduction .add [1] ⟨1, ![n]⟩ v acc h hφ hacc) hc (ix2 r z)
      = ∑ k : Fin d, v (ix2 r k) := by
  rw [shapeCast_apply _ hc (ix2 r z) (ix1 r) (by
    rw [Shape.rowMajor_val_one, Shape.rowMajor_val_two]
    show r.val = r.val * 1 + z.val
    omega)]
  exact rowSum_apply v acc h hφ hacc r

end Idealize.ShloMosaic.RowSum
-- ==== Proof.Payload.lean ====
/-
  The kernel's arithmetic, entry by entry over the extended reals.

  One grid point works on a batch tile `x0` of 1024 rows (with the rows' squared norms `xs` as a column) and a tile of
  1024 centres cut into two chunks of 512. For a chunk with centres `cen`, squared norms `cc`, inverse squared widths
  `sg` and cluster table `as`, row r and cluster o receive
      Σ_q exp(−max(xs r + cc q − 2·Σ_k x0[r,k]·cen[q,k], 0) · sg q) · as[q,o],
  and the running total takes the two chunks one after the other. The last point of a batch tile multiplies the total
  by the transposed weights and adds the bias row.
-/
import proofs.«429590_j33217277067568_2_alg».proof.Proof.Gen.KernelIdeal.Skeleton
import proofs.«429590_j33217277067568_2_alg».proof.Proof.Spec
import proofs.«429590_j33217277067568_2_alg».proof.Proof.Algebra
import proofs.«429590_j33217277067568_2_alg».proof.Proof.LibRowSum
import Idealize.ShloMosaic.PureOps.Ideal.Laws
import Idealize.ShloMosaic.Lib.ValueIdx
import Idealize.ShloMosaic.Lib.Pipeline.Value
import Idealize.ShloMosaic.Lib.ValueLayout

open scoped BigOperators

noncomputable section

namespace Cert.KernelIdeal.Pay

open Cert.KernelIdeal Cert.KernelIdeal.Gen Idealize.ShloMosaic Idealize.ShloMosaic.ValueIdx

/-- One centre's activation from the row's squared norm, the centre's squared norm, their inner product and the
    centre's inverse squared width. -/
def act (xx cc d sg : EReal) : EReal := Ideal.exp (-(max ((xx + cc) - Cert.Rbf.two * d) 0) * sg)

/-! ### The two products' operand indices, axis by axis -/

theorem lhs_dotA_0 (i : S1024x512.Idx) (q : dot_S1024x128_S128x512_S1024x512_1_0_0_1_n_n.contr.Idx) :
    (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem lhs_dotA_1 (i : S1024x512.Idx) (q : dot_S1024x128_S128x512_S1024x512_1_0_0_1_n_n.contr.Idx) :
    (dot_S1024x128_S128x512_S1024x512_1_0_0_1_n_n.lhsIdx i q 1).val = (q ⟨0, by decide⟩).val :=
  dot_S1024x128_S128x512_S1024x512_1_0_0_1_n_n.lhsIdx_val_of_single rfl i q
theorem rhs_dotA_0 (i : S1024x512.Idx) (q : dot_S1024x128_S128x512_S1024x512_1_0_0_1_n_n.contr.Idx) :
    (dot_S1024x128_S128x512_S1024x512_1_0_0_1_n_n.rhsIdx i q 0).val = (q ⟨0, by decide⟩).val :=
  dot_S1024x128_S128x512_S1024x512_1_0_0_1_n_n.rhsIdx_val_of_single rfl i q
theorem rhs_dotA_1 (i : S1024x512.Idx) (q : dot_S1024x128_S128x512_S1024x512_1_0_0_1_n_n.contr.Idx) :
    (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl

theorem lhs_dotB_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_dotB_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_dotB_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_dotB_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The [1024,128] × [128,512] product into the zero accumulator, entry (r, q): the sum over the 128 columns. -/
theorem dotA_apply (l : FVec Ideal S1024x128 .bf16) (m : FVec Ideal S128x512 .bf16) (r : Fin 1024) (q : Fin 512) :
    matmul dot_S1024x128_S128x512_S1024x512_1_0_0_1_n_n none l m (constant S1024x512 .f32 0x00000000#32) (ix2 r q)
      = ∑ k : Fin 128, l (ix2 r k) * m (ix2 k q) := by
  simp only [matmul]
  rw [Ideal.matmul_constant_zero_apply, ← Equiv.sum_comp (contrEquiv1 dot_S1024x128_S128x512_S1024x512_1_0_0_1_n_n 128 rfl rfl).symm]
  refine Finset.sum_congr rfl fun k _ => ?_
  have hk := contrEquiv1_symm_val dot_S1024x128_S128x512_S1024x512_1_0_0_1_n_n 128 rfl rfl k
  have el : dot_S1024x128_S128x512_S1024x512_1_0_0_1_n_n.lhsIdx (ix2 r q) ((contrEquiv1 dot_S1024x128_S128x512_S1024x512_1_0_0_1_n_n 128 rfl rfl).symm k) = ix2 r k := funext fun a => Fin.ext (by
    match a with
    | ⟨0, _⟩ => exact lhs_dotA_0 _ _
    | ⟨1, _⟩ => exact (lhs_dotA_1 _ _).trans hk)
  have er : dot_S1024x128_S128x512_S1024x512_1_0_0_1_n_n.rhsIdx (ix2 r q) ((contrEquiv1 dot_S1024x128_S128x512_S1024x512_1_0_0_1_n_n 128 rfl rfl).symm k) = ix2 k q := funext fun a => Fin.ext (by
    match a with
    | ⟨0, _⟩ => exact (rhs_dotA_0 _ _).trans hk
    | ⟨1, _⟩ => exact rhs_dotA_1 _ _)
  rw [el, er]

/-- The [1024,512] × [512,512] product into the zero accumulator, entry (r, o): the sum over the 512 columns. -/
theorem dotB_apply (l : FVec Ideal S1024x512 .bf16) (m : FVec Ideal S512x512 .bf16) (r : Fin 1024) (o : Fin 512) :
    matmul dot_S1024x512_S512x512_S1024x512_1_0_0_1_n_n none l m (constant S1024x512 .f32 0x00000000#32) (ix2 r o)
      = ∑ q : Fin 512, l (ix2 r q) * m (ix2 q o) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r o) ((contrEquiv1 dot_S1024x512_S512x512_S1024x512_1_0_0_1_n_n 512 rfl rfl).symm k) = ix2 r k := funext fun a => Fin.ext (by
    match a with
    | ⟨0, _⟩ => exact lhs_dotB_0 _ _
    | ⟨1, _⟩ => exact (lhs_dotB_1 _ _).trans hk)
  have er : dot_S1024x512_S512x512_S1024x512_1_0_0_1_n_n.rhsIdx (ix2 r o) ((contrEquiv1 dot_S1024x512_S512x512_S1024x512_1_0_0_1_n_n 512 rfl rfl).symm k) = ix2 k o := funext fun a => Fin.ext (by
    match a with
    | ⟨0, _⟩ => exact (rhs_dotB_0 _ _).trans hk
    | ⟨1, _⟩ => exact rhs_dotB_1 _ _)
  rw [el, er]

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first product with its right operand given untransposed: the inner products of rows. -/
theorem dotA_transpose_apply (l : FVec Ideal S1024x128 .bf16) (c : FVec Ideal S512x128 .bf16) (r : Fin 1024) (q : Fin 512) :
    matmul dot_S1024x128_S128x512_S1024x512_1_0_0_1_n_n none l
        (transpose S128x512 [1, 0] c transposes_S512x128_p1_0_S128x512) (constant S1024x512 .f32 0x00000000#32) (ix2 r q)
      = ∑ k : Fin 128, l (ix2 r k) * c (ix2 q k) := by
  rw [dotA_apply]
  exact Finset.sum_congr rfl fun k _ => by rw [transpose_ix2_apply]

/-- The second product with its right operand given untransposed. -/
theorem dotB_transpose_apply (l : FVec Ideal S1024x512 .bf16) (c : FVec Ideal S512x512 .bf16) (r : Fin 1024) (o : Fin 512) :
    matmul dot_S1024x512_S512x512_S1024x512_1_0_0_1_n_n none l
        (transpose S512x512 [1, 0] c transposes_S512x512_p1_0_S512x512) (constant S1024x512 .f32 0x00000000#32) (ix2 r o)
      = ∑ p : Fin 512, l (ix2 r p) * c (ix2 o p) := by
  rw [dotB_apply]
  exact Finset.sum_congr rfl fun p _ => by rw [transpose_ix2_apply]

/-- The activation chain on whole arrays, read at one entry: the zero word is 0 and `0 − v = −v`. -/
theorem act_vec_apply {s : Shape} (A B D G : FVec Ideal s .f32) (h : FTy.bits .bf16 < FTy.bits .f32) (i : s.Idx) :
    (truncf .bf16 (exp (mulf (subf (broadcast s (Scalar.ofBits (F := Ideal) .f32 0x00000000#32))
        (maximumf (subf (addf A B) (mulf (broadcast s (Scalar.ofBits (F := Ideal) .f32 0x40000000#32)) D))
          (broadcast s (Scalar.ofBits (F := Ideal) .f32 0x00000000#32)))) G)) h : FVec Ideal s .bf16) i
      = act (A i) (B i) (D i) (G i) := by
  show Ideal.exp ((Ideal.ofBits .f32 0x00000000#32 - max ((A i + B i) - Ideal.ofBits .f32 0x40000000#32 * D i)
      (Ideal.ofBits .f32 0x00000000#32)) * G i) = _
  rw [Ideal.ofBits_zero_f32, Cert.Rbf.zero_sub']
  rfl

/-- One chunk of 512 centres added to a running total. -/
theorem pay7_apply (x0 : FVec Ideal S1024x128 .f32) (xs : FVec Ideal S1024x1 .f32)
    (cen : FVec Ideal S512x128 .f32) (cc sg : FVec Ideal S1x512 .f32)
    (am : FVec Ideal S512x512 .bf16) (acc : FVec Ideal S1024x512 .f32) (r : Fin 1024) (o : Fin 512) :
    k0_pay7 (F := Ideal) x0 xs cen cc sg am acc (ix2 r o)
      = acc (ix2 r o)
        + ∑ q : Fin 512, act (xs (ix2 r 0)) (cc (ix2 0 q)) (∑ k : Fin 128, x0 (ix2 r k) * cen (ix2 q k)) (sg (ix2 0 q))
            * am (ix2 q o) := by
  unfold k0_pay7 k0_pay6
  rw [addf_apply, dotB_apply]
  refine congrArg (acc (ix2 r o) + ·) (Finset.sum_congr rfl fun q _ => ?_)
  rw [act_vec_apply, shapeCast_self, shapeCast_self, shapeCast_self, broadcastTo_a1_ab_apply, broadcastTo_1b_ab_apply,
    broadcastTo_1b_ab_apply, dotA_transpose_apply]
  simp only [truncf_apply]

/-- The second chunk's update is the first chunk's, followed by a cast to the same shape. -/
theorem pay2_eq_pay7 (x0 : FVec Ideal S1024x128 .f32) (xs : FVec Ideal S1024x1 .f32)
    (cen : FVec Ideal S512x128 .f32) (cc sg : FVec Ideal S1x512 .f32)
    (am : FVec Ideal S512x512 .bf16) (acc : FVec Ideal S1024x512 .f32) :
    k0_pay2 (F := Ideal) (k0_pay6 (F := Ideal) x0) xs cen cc sg am acc = k0_pay7 (F := Ideal) x0 xs cen cc sg am acc := by
  show shapeCast S1024x512 (k0_pay7 (F := Ideal) x0 xs cen cc sg am acc) shapeCasts_S1024x512_S1024x512 = _
  exact shapeCast_self _ _

/-- The accumulator is reset to zero. -/
theorem pay4_apply (i : S1024x512.Idx) : k0_pay4 (F := Ideal) i = 0 := by
  unfold k0_pay4
  rw [shapeCast_self]
  exact Ideal.ofBits_zero_f32

/-- The squared norms of the batch tile's rows, kept as a column. -/
theorem pay5_apply (x0 : FVec Ideal S1024x128 .f32) (r : Fin 1024) (z : Fin 1) :
    k0_pay5 (F := Ideal) x0 (ix2 r z) = ∑ k : Fin 128, x0 (ix2 r k) * x0 (ix2 r k) := by
  unfold k0_pay5
  rw [shapeCast_self]
  exact RowSum.rowSum_keepdims_apply (mulf x0 x0) _ _ _ _ _ r z

/-- One grid point's update of the running total: the two chunks of 512 centres, one after the other. -/
theorem step_apply (x0 : FVec Ideal S1024x128 .f32) (xs : FVec Ideal S1024x1 .f32)
    (clo chi : FVec Ideal S512x128 .f32) (cclo cchi sglo sghi : FVec Ideal S1x512 .f32)
    (aslo ashi : FVec Ideal S512x512 .bf16) (acc : FVec Ideal S1024x512 .f32) (r : Fin 1024) (o : Fin 512) :
    k0_pay2 (F := Ideal) (k0_pay6 (F := Ideal) x0) xs chi cchi sghi ashi
        (k0_pay1 (F := Ideal) (k0_pay7 (F := Ideal) x0 xs clo cclo sglo aslo acc)) (ix2 r o)
      = (acc (ix2 r o)
          + ∑ q : Fin 512, act (xs (ix2 r 0)) (cclo (ix2 0 q)) (∑ k : Fin 128, x0 (ix2 r k) * clo (ix2 q k)) (sglo (ix2 0 q))
              * aslo (ix2 q o))
        + ∑ q : Fin 512, act (xs (ix2 r 0)) (cchi (ix2 0 q)) (∑ k : Fin 128, x0 (ix2 r k) * chi (ix2 q k)) (sghi (ix2 0 q))
              * ashi (ix2 q o) := by
  rw [pay2_eq_pay7, pay7_apply]
  unfold k0_pay1
  rw [shapeCast_self, pay7_apply]

/-- The closing linear layer on a batch tile's running total. -/
theorem pay3_apply (acc : FVec Ideal S1024x512 .f32) (Wm : FVec Ideal S512x512 .f32) (b2 : FVec Ideal S1x512 .f32)
    (r : Fin 1024) (o : Fin 512) :
    k0_pay3 (F := Ideal) acc Wm b2 (ix2 r o) = (∑ p : Fin 512, acc (ix2 r p) * Wm (ix2 o p)) + b2 (ix2 0 o) := by
  unfold k0_pay3
  rw [addf_apply, dotB_transpose_apply, shapeCast_self, broadcastTo_1b_ab_apply]
  simp only [truncf_apply]

end Cert.KernelIdeal.Pay

end
-- ==== Proof.Pieces.lean ====
/-
  What each control case of the kernel body leaves in the two scratch buffers it carries between grid points and in
  the output block, as the body's arithmetic applied to the point's input blocks.

  The body reads the centre tile, the two row tiles and the cluster table in two halves (the first 512 centres, then
  the last 512). At the first point of a batch tile (case A) the running total starts from zero and the squared norms
  of the batch rows are computed and stored; at the later points (cases B and C) both are taken over from the point
  before; at the last point (case C) the output block is the linear layer applied to the running total.
-/
import proofs.«429590_j33217277067568_2_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.ValueIdx

variable {F : FTy → Type} [FloatOps F]

/-! ## The halves of a tile -/

/-- Rows 0..511 of a 1024-row tile of centres. -/
def lo128 (x1 : Vec F S1024x128 .f32) : Vec F S512x128 .f32 :=
  fun y => x1 (ix2 ⟨(y 0).val, Nat.lt_of_lt_of_le (idx2_lt0 y) (by decide)⟩ ⟨(y 1).val, idx2_lt1 y⟩)
/-- Rows 512..1023. -/
def hi128 (x1 : Vec F S1024x128 .f32) : Vec F S512x128 .f32 :=
  fun y => x1 (ix2 ⟨512 + (y 0).val, by have := idx2_lt0 y; omega⟩ ⟨(y 1).val, idx2_lt1 y⟩)
/-- Columns 0..511 of a row of 1024 per-centre numbers. -/
def loRow (x2 : Vec F S1x1024 .f32) : Vec F S1x512 .f32 :=
  fun y => x2 (ix2 ⟨(y 0).val, idx2_lt0 y⟩ ⟨(y 1).val, Nat.lt_of_lt_of_le (idx2_lt1 y) (by decide)⟩)
/-- Columns 512..1023. -/
def hiRow (x2 : Vec F S1x1024 .f32) : Vec F S1x512 .f32 :=
  fun y => x2 (ix2 ⟨(y 0).val, idx2_lt0 y⟩ ⟨512 + (y 1).val, by have := idx2_lt1 y; omega⟩)
/-- Rows 0..511 of a 1024-row tile of the cluster table. -/
def lo512 (x4 : Vec F S1024x512 .bf16) : Vec F S512x512 .bf16 :=
  fun y => x4 (ix2 ⟨(y 0).val, Nat.lt_of_lt_of_le (idx2_lt0 y) (by decide)⟩ ⟨(y 1).val, idx2_lt1 y⟩)
/-- Rows 512..1023. -/
def hi512 (x4 : Vec F S1024x512 .bf16) : Vec F S512x512 .bf16 :=
  fun y => x4 (ix2 ⟨512 + (y 0).val, by have := idx2_lt0 y; omega⟩ ⟨(y 1).val, idx2_lt1 y⟩)

theorem lo128_apply (x1 : Vec F S1024x128 .f32) (q : Fin 512) (k : Fin 128) :
    lo128 x1 (ix2 q k) = x1 (ix2 ⟨q.val, by omega⟩ k) := rfl
theorem hi128_apply (x1 : Vec F S1024x128 .f32) (q : Fin 512) (k : Fin 128) :
    hi128 x1 (ix2 q k) = x1 (ix2 ⟨512 + q.val, by omega⟩ k) := rfl
theorem loRow_apply (x2 : Vec F S1x1024 .f32) (z : Fin 1) (q : Fin 512) :
    loRow x2 (ix2 z q) = x2 (ix2 z ⟨q.val, by omega⟩) := rfl
theorem hiRow_apply (x2 : Vec F S1x1024 .f32) (z : Fin 1) (q : Fin 512) :
    hiRow x2 (ix2 z q) = x2 (ix2 z ⟨512 + q.val, by omega⟩) := rfl
theorem lo512_apply (x4 : Vec F S1024x512 .bf16) (q : Fin 512) (o : Fin 512) :
    lo512 x4 (ix2 q o) = x4 (ix2 ⟨q.val, by omega⟩ o) := rfl
theorem hi512_apply (x4 : Vec F S1024x512 .bf16) (q : Fin 512) (o : Fin 512) :
    hi512 x4 (ix2 q o) = x4 (ix2 ⟨512 + q.val, by omega⟩ o) := rfl

/-- One grid point's new running total from the point's blocks, the rows' squared norms `xs` and the running total
    `acc` it starts from: the first half of the centre tile, then the second. -/
def stepv (x0 : Vec F S1024x128 .f32) (xs : Vec F S1024x1 .f32) (x1 : Vec F S1024x128 .f32) (x2 x3 : Vec F S1x1024 .f32)
    (x4 : Vec F S1024x512 .bf16) (acc : Vec F S1024x512 .f32) : Vec F S1024x512 .f32 :=
  k0_pay2 (k0_pay6 x0) xs (hi128 x1) (hiRow x2) (hiRow x3) (hi512 x4)
    (k0_pay1 (k0_pay7 x0 xs (lo128 x1) (loRow x2) (loRow x3) (lo512 x4) acc))

/-! ## The halves, as what a load through the half's rectangle reads

A load through the unit-stride rectangle of 512 rows (or columns) at offset 0 or 512 reads the tile at the
rectangle's coordinates, offset plus local coordinate on each axis: the half. -/

/-- The two zero offsets of a whole-buffer rectangle, as the constant function. -/
private theorem hz : (![0, 0] : Fin 2 → Nat) = fun _ => 0 := funext fun a => by fin_cases a <;> rfl

/-- Rows 0..511 are what the rectangle of 512 rows at row offset 0 reads. -/
theorem lo128_eq_ld (x1 : Vec F S1024x128 .f32) :
    lo128 x1 = View.ld (Val := Elt F) x1 (Rect.unit (s := S1024x128) ![0, 0] S512x128.size inb_S1024x128_S512x128_0_0) := by
  funext y
  show x1 _ = x1 _
  congr 1
  funext a
  apply Fin.ext
  match a with
  | ⟨0, _⟩ => show (y 0).val = 0 + 1 * (y 0).val; omega
  | ⟨1, _⟩ => show (y 1).val = 0 + 1 * (y 1).val; omega

/-- Rows 512..1023 are what the rectangle of 512 rows at row offset 512 reads. -/
theorem hi128_eq_ld (x1 : Vec F S1024x128 .f32) :
    hi128 x1 = View.ld (Val := Elt F) x1 (Rect.unit (s := S1024x128) ![512, 0] S512x128.size inb_S1024x128_S512x128_512_0) := by
  funext y
  show x1 _ = x1 _
  congr 1
  funext a
  apply Fin.ext
  match a with
  | ⟨0, _⟩ => show 512 + (y 0).val = 512 + 1 * (y 0).val; omega
  | ⟨1, _⟩ => show (y 1).val = 0 + 1 * (y 1).val; omega

/-- Columns 0..511 are what the rectangle of 512 columns at column offset 0 reads. -/
theorem loRow_eq_ld (x2 : Vec F S1x1024 .f32) :
    loRow x2 = View.ld (Val := Elt F) x2 (Rect.unit (s := S1x1024) ![0, 0] S1x512.size inb_S1x1024_S1x512_0_0) := by
  funext y
  show x2 _ = x2 _
  congr 1
  funext a
  apply Fin.ext
  match a with
  | ⟨0, _⟩ => show (y 0).val = 0 + 1 * (y 0).val; omega
  | ⟨1, _⟩ => show (y 1).val = 0 + 1 * (y 1).val; omega

/-- Columns 512..1023 are what the rectangle of 512 columns at column offset 512 reads. -/
theorem hiRow_eq_ld (x2 : Vec F S1x1024 .f32) :
    hiRow x2 = View.ld (Val := Elt F) x2 (Rect.unit (s := S1x1024) ![0, 512] S1x512.size inb_S1x1024_S1x512_0_512) := by
  funext y
  show x2 _ = x2 _
  congr 1
  funext a
  apply Fin.ext
  match a with
  | ⟨0, _⟩ => show (y 0).val = 0 + 1 * (y 0).val; omega
  | ⟨1, _⟩ => show 512 + (y 1).val = 512 + 1 * (y 1).val; omega

/-- Rows 0..511 of the table are what the rectangle of 512 rows at row offset 0 reads. -/
theorem lo512_eq_ld (x4 : Vec F S1024x512 .bf16) :
    lo512 x4 = View.ld (Val := Elt F) x4 (Rect.unit (s := S1024x512) ![0, 0] S512x512.size inb_S1024x512_S512x512_0_0) := by
  funext y
  show x4 _ = x4 _
  congr 1
  funext a
  apply Fin.ext
  match a with
  | ⟨0, _⟩ => show (y 0).val = 0 + 1 * (y 0).val; omega
  | ⟨1, _⟩ => show (y 1).val = 0 + 1 * (y 1).val; omega

/-- Rows 512..1023 of the table are what the rectangle of 512 rows at row offset 512 reads. -/
theorem hi512_eq_ld (x4 : Vec F S1024x512 .bf16) :
    hi512 x4 = View.ld (Val := Elt F) x4 (Rect.unit (s := S1024x512) ![512, 0] S512x512.size inb_S1024x512_S512x512_512_0) := by
  funext y
  show x4 _ = x4 _
  congr 1
  funext a
  apply Fin.ext
  match a with
  | ⟨0, _⟩ => show 512 + (y 0).val = 512 + 1 * (y 0).val; omega
  | ⟨1, _⟩ => show (y 1).val = 0 + 1 * (y 1).val; omega

variable (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x512 .bf16) (harg6 : arg6.IsWhole) (arg7 : Memref sig .tc .vmem S512x512 .f32) (harg7 : arg7.IsWhole) (arg8 : Memref sig .tc .vmem S1x512 .f32) (harg8 : arg8.IsWhole) (arg9 : Memref sig .tc .vmem S1024x512 .f32) (harg9 : arg9.IsWhole) (arg10 : Memref sig .tc .vmem S1024x512 .f32) (harg10 : arg10.IsWhole) (arg11 : Memref sig .tc .vmem S1024x1 .f32) (harg11 : arg11.IsWhole)
  (x0 : Vec F S1024x128 .f32) (x1 : Vec F S1024x128 .f32) (x2 : Vec F S1x1024 .f32) (x3 : Vec F S1x1024 .f32)
  (x4 : Vec F S1024x512 .bf16) (x5 : Vec F S512x512 .f32) (x6 : Vec F S1x512 .f32)
  (xs0 : Vec F S1024x512 .f32) (xs1 : Vec F S1024x1 .f32)

/-! ## Case A: the first point of a batch tile -/

/-- The squared norms of the batch rows, stored for the later points. -/
theorem soutA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay5 x0 := by
  -- one store covers the buffer: what is read back is its payload, over the whole batch tile
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero hz]
  simp only [View.readAt_eq_ld, harg2.read_unread, View.ld_unit_zero (S := S1024x128) hz]

/-- The running total after the first centre tile, started from zero. -/
theorem soutA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 x3 x4 x5 x6
      = stepv x0 (k0_pay5 x0) x1 x2 x3 x4 (k0_pay4 (F := F)) := by
  -- three stores, each covering the buffer: the last one's payload is read back; it reads the second store's
  -- payload back, which reads the reset's zeros back, and the squared norms are read back from their own store
  unfold sout0_A_0 stepv
  rw [lo128_eq_ld, hi128_eq_ld, loRow_eq_ld x2, hiRow_eq_ld x2, loRow_eq_ld x3, hiRow_eq_ld x3, lo512_eq_ld, hi512_eq_ld]
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x512) hz]
  simp only [View.readAt_eq_ld, harg2.read_unread, harg3.read_unread, harg4.read_unread, harg5.read_unread,
    harg6.read_unread, harg7.read_unread, harg8.read_unread, harg10.read_unread, harg11.read_unread,
    View.ld_unit_zero (S := S1024x128) hz, View.ld_unit_zero (S := S1024x1) hz, View.ld_unit_zero (S := S1024x512) hz,
    View.ld_unit_zero (S := S512x512) hz, View.ld_unit_zero (S := S1x512) hz, View.readCov_cons_toLoadRect]

/-! ## Case B: a point in the middle -/

theorem soutB0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = stepv x0 xs1 x1 x2 x3 x4 xs0 := by
  -- two stores, each covering the buffer: the last one's payload is read back; it reads the first store's payload
  -- back, which reads what the point before left
  unfold sout0_B_0 stepv
  rw [lo128_eq_ld, hi128_eq_ld, loRow_eq_ld x2, hiRow_eq_ld x2, loRow_eq_ld x3, hiRow_eq_ld x3, lo512_eq_ld, hi512_eq_ld]
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_cons_unit_zero (S := S1024x512) hz]
  simp only [View.readAt_eq_ld, harg2.read_unread, harg3.read_unread, harg4.read_unread, harg5.read_unread,
    harg6.read_unread, harg7.read_unread, harg8.read_unread, harg10.read_unread, harg11.read_unread,
    View.ld_unit_zero (S := S1024x128) hz, View.ld_unit_zero (S := S1024x1) hz, View.ld_unit_zero (S := S1024x512) hz,
    View.ld_unit_zero (S := S512x512) hz, View.ld_unit_zero (S := S1x512) hz, View.readCov_cons_toLoadRect]

/-! ## Case C: the last point of a batch tile -/

theorem soutC0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = stepv x0 xs1 x1 x2 x3 x4 xs0 := by
  -- as in the middle case: the output store does not touch this buffer
  unfold sout0_C_0 stepv
  rw [lo128_eq_ld, hi128_eq_ld, loRow_eq_ld x2, hiRow_eq_ld x2, loRow_eq_ld x3, hiRow_eq_ld x3, lo512_eq_ld, hi512_eq_ld]
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_cons_unit_zero (S := S1024x512) hz]
  simp only [View.readAt_eq_ld, harg2.read_unread, harg3.read_unread, harg4.read_unread, harg5.read_unread,
    harg6.read_unread, harg7.read_unread, harg8.read_unread, harg10.read_unread, harg11.read_unread,
    View.ld_unit_zero (S := S1024x128) hz, View.ld_unit_zero (S := S1024x1) hz, View.ld_unit_zero (S := S1024x512) hz,
    View.ld_unit_zero (S := S512x512) hz, View.ld_unit_zero (S := S1x512) hz, View.readCov_cons_toLoadRect]

/-- The output block: the linear layer on the finished running total. -/
theorem outC7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay3 (stepv x0 xs1 x1 x2 x3 x4 xs0) x5 x6 := by
  -- one store covers the output block; its payload reads the finished running total back from the scratch buffer
  unfold out0_C_7 stepv
  rw [lo128_eq_ld, hi128_eq_ld, loRow_eq_ld x2, hiRow_eq_ld x2, loRow_eq_ld x3, hiRow_eq_ld x3, lo512_eq_ld, hi512_eq_ld]
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread,
    harg6.read_unread, harg7.read_unread, harg8.read_unread, harg10.read_unread, harg11.read_unread,
    View.ld_unit_zero (S := S1024x128) hz, View.ld_unit_zero (S := S1024x1) hz, View.ld_unit_zero (S := S1024x512) hz,
    View.ld_unit_zero (S := S512x512) hz, View.ld_unit_zero (S := S1x512) hz, View.readCov_cons_toLoadRect]

end Cert.KernelIdeal.Pieces

end
-- ==== Proof.KernelValue.lean ====
/-
  The kernel's result array, entry by entry over the extended reals, is the layer's function `Cert.Rbf.G` of the six
  arguments, provided every cluster number lies in [0, 512).

  The grid is 4 batch tiles × 16 centre tiles, visited batch tile by batch tile: point n works on batch tile n / 16 and
  centre tile n % 16. Two scratch buffers are carried from point to point. After point n
    • the column scratch holds the squared norms of the rows of batch tile n / 16, and
    • the running total holds, at (r, o), the sum over the first 1024·(n % 16 + 1) centres j of the activation of j on
      row r of the tile, taken when cluster(j) = o and 0 otherwise
  (by induction on n: the first point of a tile starts both, every later point extends the total by its two chunks of
  512 centres). The last point of a tile has all 16384 centres in the total, applies the linear layer and writes the
  output block; the four output blocks tile the result array.
-/
import proofs.«429590_j33217277067568_2_alg».proof.Proof.Gen.KernelIdeal.Value
import proofs.«429590_j33217277067568_2_alg».proof.Proof.Spec
import proofs.«429590_j33217277067568_2_alg».proof.Proof.Algebra
import proofs.«429590_j33217277067568_2_alg».proof.Proof.Payload
import proofs.«429590_j33217277067568_2_alg».proof.Proof.Pieces
import proofs.«429590_j33217277067568_2_alg».proof.Proof.HostSide
import Idealize.ShloMosaic.Lib.Pipeline.Value
import Idealize.ShloMosaic.Lib.ValueIdx

set_option maxRecDepth 16384

open scoped BigOperators

noncomputable section

namespace Cert.KernelIdeal.RbfValue

open Cert.KernelIdeal Cert.KernelIdeal.Gen Cert.KernelIdeal.Value Cert.KernelIdeal.Pay Cert.KernelIdeal.Pieces
  Cert.KernelIdeal.HostSide Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments and the point's blocks, at their literal types -/

abbrev aX (c : Dev nD) : FVec Ideal S4096x128 .f32 := m ((c : Thread nD τ).loc main_arg0)
abbrev aC (c : Dev nD) : FVec Ideal S16384x128 .f32 := m ((c : Thread nD τ).loc main_arg1)
abbrev aL (c : Dev nD) : FVec Ideal S16384 .f32 := m ((c : Thread nD τ).loc main_arg2)
abbrev aN (c : Dev nD) : IVec S16384 32 := m ((c : Thread nD τ).loc main_arg3)
abbrev aW (c : Dev nD) : FVec Ideal S512x512 .f32 := m ((c : Thread nD τ).loc main_arg4)
abbrev aB (c : Dev nD) : FVec Ideal S512 .f32 := m ((c : Thread nD τ).loc main_arg5)

abbrev bX (c : Dev nD) (t : Fin cfg0.N) : Vec Ideal S1024x128 .f32 := iblk m c 0 t
abbrev bC (c : Dev nD) (t : Fin cfg0.N) : Vec Ideal S1024x128 .f32 := iblk m c 1 t
abbrev bCC (c : Dev nD) (t : Fin cfg0.N) : Vec Ideal S1x1024 .f32 := iblk m c 2 t
abbrev bSG (c : Dev nD) (t : Fin cfg0.N) : Vec Ideal S1x1024 .f32 := iblk m c 3 t
abbrev bAS (c : Dev nD) (t : Fin cfg0.N) : Vec Ideal S1024x512 .bf16 := iblk m c 4 t
abbrev bW (c : Dev nD) (t : Fin cfg0.N) : Vec Ideal S512x512 .f32 := iblk m c 5 t
abbrev bB (c : Dev nD) (t : Fin cfg0.N) : Vec Ideal S1x512 .f32 := iblk m c 6 t

/-- Row `r` of the batch tile of point `n`, as a row of the batch. -/
def rowIx (n : ℕ) (r : Fin 1024) : Fin 4096 := ⟨(1024 * (n / 16) + r.val) % 4096, Nat.mod_lt _ (by norm_num)⟩
/-- Centre `q` of the centre tile of point `n`, as a centre. -/
def cenIx (n : ℕ) (q : Fin 1024) : Fin 16384 := ⟨1024 * (n % 16) + q.val, by have := q.isLt; omega⟩

theorem N64 : cfg0.N = 64 := N_0

/-- The printed index maps, decided once over the 64 points. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = 0 ∧ win0_2.index t (1 : Fin 2) = t.val % 16
    ∧ win0_3.index t (0 : Fin 2) = 0 ∧ win0_3.index t (1 : Fin 2) = t.val % 16
    ∧ win0_4.index t (0 : Fin 2) = t.val % 16 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val / 16 ∧ win0_7.index t (1 : Fin 2) = 0 :=
  (by decide +kernel : ∀ t : Fin grid0.N, _)

/-! ## Each block is its array read where the window's index map says -/

theorem blkX (c : Dev nD) (t : Fin cfg0.N) (r : Fin 1024) (k : Fin 128) :
    bX m c t (ix2 r k) = aX m c (ix2 (rowIx t.val r) k) := by
  obtain ⟨e0, e1, -⟩ := idx_facts t
  have hN : t.val < 64 := lt_of_lt_of_eq t.isLt N64
  unfold bX iblk
  rw [View.read_apply]
  refine (congrFun (V_main_arg0 m c) _).trans (congrArg (m ((c : Thread nD τ).loc main_arg0)) ?_)
  funext a; apply Fin.ext
  match a with
  | ⟨0, _⟩ => show win0_0.index t (0 : Fin 2) * 1024 + 1 * r.val = (1024 * (t.val / 16) + r.val) % 4096; have := r.isLt; omega
  | ⟨1, _⟩ => show win0_0.index t (1 : Fin 2) * 128 + 1 * k.val = k.val; omega

theorem blkC (c : Dev nD) (t : Fin cfg0.N) (q : Fin 1024) (k : Fin 128) :
    bC m c t (ix2 q k) = aC m c (ix2 (cenIx t.val q) k) := by
  obtain ⟨-, -, e0, e1, -⟩ := idx_facts t
  unfold bC iblk
  rw [View.read_apply]
  refine (congrFun (V_main_arg1 m c) _).trans (congrArg (m ((c : Thread nD τ).loc main_arg1)) ?_)
  funext a; apply Fin.ext
  match a with
  | ⟨0, _⟩ => show win0_1.index t (0 : Fin 2) * 1024 + 1 * q.val = 1024 * (t.val % 16) + q.val; omega
  | ⟨1, _⟩ => show win0_1.index t (1 : Fin 2) * 128 + 1 * k.val = k.val; omega

theorem blkCC (c : Dev nD) (t : Fin cfg0.N) (z : Fin 1) (q : Fin 1024) :
    bCC m c t (ix2 z q) = Cert.Rbf.cc (aC m c) (cenIx t.val q) := by
  obtain ⟨-, -, -, -, e0, e1, -⟩ := idx_facts t
  unfold bCC iblk
  rw [View.read_apply]
  refine Eq.trans (congrArg (V m c main_v6) ?_) (V_cc m c z (cenIx t.val q))
  funext a; apply Fin.ext
  match a with
  | ⟨0, _⟩ => show win0_2.index t (0 : Fin 2) * 1 + 1 * z.val = z.val; omega
  | ⟨1, _⟩ => show win0_2.index t (1 : Fin 2) * 1024 + 1 * q.val = 1024 * (t.val % 16) + q.val; omega

theorem blkSG (c : Dev nD) (t : Fin cfg0.N) (z : Fin 1) (q : Fin 1024) :
    bSG m c t (ix2 z q) = Cert.Rbf.sig2 (aL m c) (cenIx t.val q) := by
  obtain ⟨-, -, -, -, -, -, e0, e1, -⟩ := idx_facts t
  unfold bSG iblk
  rw [View.read_apply]
  refine Eq.trans (congrArg (V m c main_v3) ?_) (V_sig m c z (cenIx t.val q))
  funext a; apply Fin.ext
  match a with
  | ⟨0, _⟩ => show win0_3.index t (0 : Fin 2) * 1 + 1 * z.val = z.val; omega
  | ⟨1, _⟩ => show win0_3.index t (1 : Fin 2) * 1024 + 1 * q.val = 1024 * (t.val % 16) + q.val; omega

theorem blkAS (c : Dev nD)
    (hr : ∀ j : Fin 16384, 0 ≤ (aN m c (ix1 j)).toInt ∧ (aN m c (ix1 j)).toInt < 512)
    (t : Fin cfg0.N) (q : Fin 1024) (o : Fin 512) :
    bAS m c t (ix2 q o) = if (aN m c (ix1 (cenIx t.val q))).toInt = (o.val : ℤ) then (1 : EReal) else 0 := by
  obtain ⟨-, -, -, -, -, -, -, -, e0, e1, -⟩ := idx_facts t
  unfold bAS iblk
  rw [View.read_apply]
  refine Eq.trans (congrArg (V m c main_v8) ?_) (V_hot m c hr (cenIx t.val q) o)
  funext a; apply Fin.ext
  match a with
  | ⟨0, _⟩ => show win0_4.index t (0 : Fin 2) * 1024 + 1 * q.val = 1024 * (t.val % 16) + q.val; omega
  | ⟨1, _⟩ => show win0_4.index t (1 : Fin 2) * 512 + 1 * o.val = o.val; omega

theorem blkW (c : Dev nD) (t : Fin cfg0.N) (o p : Fin 512) :
    bW m c t (ix2 o p) = aW m c (ix2 o p) := by
  obtain ⟨-, -, -, -, -, -, -, -, -, -, e0, e1, -⟩ := idx_facts t
  unfold bW iblk
  rw [View.read_apply]
  refine (congrFun (V_main_arg4 m c) _).trans (congrArg (m ((c : Thread nD τ).loc main_arg4)) ?_)
  funext a; apply Fin.ext
  match a with
  | ⟨0, _⟩ => show win0_5.index t (0 : Fin 2) * 512 + 1 * o.val = o.val; omega
  | ⟨1, _⟩ => show win0_5.index t (1 : Fin 2) * 512 + 1 * p.val = p.val; omega

theorem blkB (c : Dev nD) (t : Fin cfg0.N) (z : Fin 1) (o : Fin 512) :
    bB m c t (ix2 z o) = aB m c (ix1 o) := by
  obtain ⟨-, -, -, -, -, -, -, -, -, -, -, -, e0, e1, -⟩ := idx_facts t
  unfold bB iblk
  rw [View.read_apply]
  refine Eq.trans (congrArg (V m c main_v9) ?_) (V_bias m c z o)
  funext a; apply Fin.ext
  match a with
  | ⟨0, _⟩ => show win0_6.index t (0 : Fin 2) * 1 + 1 * z.val = z.val; omega
  | ⟨1, _⟩ => show win0_6.index t (1 : Fin 2) * 512 + 1 * o.val = o.val; omega

/-! ## The running total -/

/-- Position `j` of the running total for batch row `b` and cluster `o`: the activation of centre `j` if its
    cluster number is `o`, else 0; beyond the last centre, 0. -/
def term (c : Dev nD) (b : Fin 4096) (o : Fin 512) (j : ℕ) : EReal :=
  if h : j < 16384 then
    (if (aN m c (ix1 ⟨j, h⟩)).toInt = (o.val : ℤ) then Cert.Rbf.phi (aX m c) (aC m c) (aL m c) b ⟨j, h⟩ else 0)
  else 0

/-- One centre of the point's tile, through blocks that read the arrays where the point's index maps say: its
    activation times its 0/1 table entry is its position of the running total. -/
theorem act_term (c : Dev nD) (n : ℕ) (x0 : FVec Ideal S1024x128 .f32) (xs : FVec Ideal S1024x1 .f32)
    (x1 : FVec Ideal S1024x128 .f32) (x2 x3 : FVec Ideal S1x1024 .f32) (x4 : FVec Ideal S1024x512 .bf16)
    (h0 : ∀ r k, x0 (ix2 r k) = aX m c (ix2 (rowIx n r) k))
    (hs : ∀ r z, xs (ix2 r z) = Cert.Rbf.xx (aX m c) (rowIx n r))
    (h1 : ∀ q k, x1 (ix2 q k) = aC m c (ix2 (cenIx n q) k))
    (h2 : ∀ z q, x2 (ix2 z q) = Cert.Rbf.cc (aC m c) (cenIx n q))
    (h3 : ∀ z q, x3 (ix2 z q) = Cert.Rbf.sig2 (aL m c) (cenIx n q))
    (h4 : ∀ q o, x4 (ix2 q o) = if (aN m c (ix1 (cenIx n q))).toInt = (o.val : ℤ) then (1 : EReal) else 0)
    (r : Fin 1024) (o : Fin 512) (q : Fin 1024) :
    act (xs (ix2 r 0)) (x2 (ix2 0 q)) (∑ k : Fin 128, x0 (ix2 r k) * x1 (ix2 q k)) (x3 (ix2 0 q)) * x4 (ix2 q o)
      = term m c (rowIx n r) o (1024 * (n % 16) + q.val) := by
  have hq : 1024 * (n % 16) + q.val < 16384 := by have := q.isLt; omega
  rw [hs, h2, h3, h4, Finset.sum_congr rfl fun k _ => by rw [h0 r k, h1 q k]]
  unfold term
  rw [dif_pos hq]
  show Cert.Rbf.phi (aX m c) (aC m c) (aL m c) (rowIx n r) (cenIx n q) * _ = _
  show _ = if (aN m c (ix1 (cenIx n q))).toInt = (o.val : ℤ) then Cert.Rbf.phi (aX m c) (aC m c) (aL m c) (rowIx n r) (cenIx n q) else 0
  split <;> simp

/-- A point's update of the running total, through such blocks: the two chunks are the next 1024 positions. -/
theorem stepv_apply (c : Dev nD) (n : ℕ) (x0 : FVec Ideal S1024x128 .f32) (xs : FVec Ideal S1024x1 .f32)
    (x1 : FVec Ideal S1024x128 .f32) (x2 x3 : FVec Ideal S1x1024 .f32) (x4 : FVec Ideal S1024x512 .bf16)
    (acc : FVec Ideal S1024x512 .f32)
    (h0 : ∀ r k, x0 (ix2 r k) = aX m c (ix2 (rowIx n r) k))
    (hs : ∀ r z, xs (ix2 r z) = Cert.Rbf.xx (aX m c) (rowIx n r))
    (h1 : ∀ q k, x1 (ix2 q k) = aC m c (ix2 (cenIx n q) k))
    (h2 : ∀ z q, x2 (ix2 z q) = Cert.Rbf.cc (aC m c) (cenIx n q))
    (h3 : ∀ z q, x3 (ix2 z q) = Cert.Rbf.sig2 (aL m c) (cenIx n q))
    (h4 : ∀ q o, x4 (ix2 q o) = if (aN m c (ix1 (cenIx n q))).toInt = (o.val : ℤ) then (1 : EReal) else 0)
    (ha : ∀ r o, acc (ix2 r o) = ∑ j ∈ Finset.range (1024 * (n % 16)), term m c (rowIx n r) o j)
    (r : Fin 1024) (o : Fin 512) :
    stepv (F := Ideal) x0 xs x1 x2 x3 x4 acc (ix2 r o)
      = ∑ j ∈ Finset.range (1024 * (n % 16) + 1024), term m c (rowIx n r) o j := by
  unfold stepv
  refine (step_apply x0 xs (lo128 (F := Ideal) x1) (hi128 (F := Ideal) x1) (loRow (F := Ideal) x2) (hiRow (F := Ideal) x2)
    (loRow (F := Ideal) x3) (hiRow (F := Ideal) x3) (lo512 (F := Ideal) x4) (hi512 (F := Ideal) x4) acc r o).trans ?_
  rw [ha r o, ← Cert.Rbf.range_add_two_chunks (term m c (rowIx n r) o) (1024 * (n % 16))]
  refine congrArg₂ (· + ·) (congrArg₂ (· + ·) rfl (Finset.sum_congr rfl fun q _ => ?_)) (Finset.sum_congr rfl fun q _ => ?_)
  · rw [loRow_apply (F := Ideal), loRow_apply (F := Ideal), lo512_apply (F := Ideal), Finset.sum_congr rfl fun k _ => by rw [lo128_apply (F := Ideal) x1 q k]]
    exact act_term m c n x0 xs x1 x2 x3 x4 h0 hs h1 h2 h3 h4 r o ⟨q.val, by have := q.isLt; omega⟩
  · rw [hiRow_apply (F := Ideal), hiRow_apply (F := Ideal), hi512_apply (F := Ideal), Finset.sum_congr rfl fun k _ => by rw [hi128_apply (F := Ideal) x1 q k]]
    refine (act_term m c n x0 xs x1 x2 x3 x4 h0 hs h1 h2 h3 h4 r o ⟨512 + q.val, by have := q.isLt; omega⟩).trans ?_
    exact congrArg (term m c (rowIx n r) o) (by show 1024 * (n % 16) + (512 + q.val) = 1024 * (n % 16) + 512 + q.val; omega)

/-! ## What the carried buffers hold after each point -/

/-- After point `n`: the column scratch holds the squared norms of the rows of the point's batch tile, and the running
    total has taken in the first `1024·(n % 16 + 1)` centres. -/
def Inv (c : Dev nD) (n : ℕ) (h : n < cfg0.N) : Prop :=
  (∀ (r : Fin 1024) (z : Fin 1), (outsAt0 m c n h).2.2 (ix2 r z) = Cert.Rbf.xx (aX m c) (rowIx n r))
  ∧ (∀ (r : Fin 1024) (o : Fin 512),
      (outsAt0 m c n h).2.1 (ix2 r o) = ∑ j ∈ Finset.range (1024 * (n % 16) + 1024), term m c (rowIx n r) o j)

variable (hr : ∀ (c : Dev nD) (j : Fin 16384), 0 ≤ (aN m c (ix1 j)).toInt ∧ (aN m c (ix1 j)).toInt < 512)
include hr

/-- The first point of a batch tile: both buffers are started there. -/
theorem inv_A (c : Dev nD) (t : Fin cfg0.N) (h0 : t.val % 16 = 0) : Inv m c t.val t.isLt := by
  have h1 : ¬t.val % 16 = 15 := by omega
  have hx : ∀ (r : Fin 1024) (z : Fin 1), k0_pay5 (F := Ideal) (bX m c t) (ix2 r z) = Cert.Rbf.xx (aX m c) (rowIx t.val r) := fun r z => by
    rw [pay5_apply]
    exact Finset.sum_congr rfl fun k _ => by rw [blkX m c t r k]
  constructor
  · intro r z
    rw [outsAt0_A m c t h0 h1]; dsimp only
    rw [soutA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (bX m c t) (bC m c t) (bCC m c t) (bSG m c t) (bAS m c t) (bW m c t) (bB m c t)]
    exact hx r z
  · intro r o
    rw [outsAt0_A m c t h0 h1]; dsimp only
    rw [soutA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (bX m c t) (bC m c t) (bCC m c t) (bSG m c t) (bAS m c t) (bW m c t) (bB m c t)]
    refine stepv_apply m c t.val (bX m c t) (k0_pay5 (F := Ideal) (bX m c t)) (bC m c t) (bCC m c t) (bSG m c t) (bAS m c t) (k0_pay4 (F := Ideal))
      (blkX m c t) hx (blkC m c t) (blkCC m c t) (blkSG m c t) (blkAS m c (hr c) t) (fun r o => ?_) r o
    rw [pay4_apply, h0, Nat.mul_zero, Finset.sum_range_zero]

/-- A later point of a batch tile: both buffers are taken over from the point before. -/
theorem inv_BC (c : Dev nD) (t : Fin cfg0.N) (h0 : ¬t.val % 16 = 0)
    (ih : Inv m c (t.val - 1) (Nat.lt_of_le_of_lt (Nat.sub_le _ _) t.isLt)) : Inv m c t.val t.isLt := by
  have hrow : ∀ r, rowIx (t.val - 1) r = rowIx t.val r := fun r => by
    unfold rowIx; congr 2; omega
  have hxs : ∀ (r : Fin 1024) (z : Fin 1), (outsAt0 m c (t.val - 1) (Nat.lt_of_le_of_lt (Nat.sub_le _ _) t.isLt)).2.2 (ix2 r z)
      = Cert.Rbf.xx (aX m c) (rowIx t.val r) := fun r z => by rw [ih.1 r z, hrow]
  have hacc : ∀ (r : Fin 1024) (o : Fin 512), (outsAt0 m c (t.val - 1) (Nat.lt_of_le_of_lt (Nat.sub_le _ _) t.isLt)).2.1 (ix2 r o)
      = ∑ j ∈ Finset.range (1024 * (t.val % 16)), term m c (rowIx t.val r) o j := fun r o => by
    rw [ih.2 r o, hrow]
    exact congrArg (fun k => ∑ j ∈ Finset.range k, term m c (rowIx t.val r) o j) (by omega)
  have hstep : ∀ (r : Fin 1024) (o : Fin 512),
      stepv (F := Ideal) (bX m c t) (outsAt0 m c (t.val - 1) (Nat.lt_of_le_of_lt (Nat.sub_le _ _) t.isLt)).2.2 (bC m c t) (bCC m c t) (bSG m c t) (bAS m c t)
        (outsAt0 m c (t.val - 1) (Nat.lt_of_le_of_lt (Nat.sub_le _ _) t.isLt)).2.1 (ix2 r o)
        = ∑ j ∈ Finset.range (1024 * (t.val % 16) + 1024), term m c (rowIx t.val r) o j :=
    stepv_apply m c t.val (bX m c t) _ (bC m c t) (bCC m c t) (bSG m c t) (bAS m c t) _
      (blkX m c t) hxs (blkC m c t) (blkCC m c t) (blkSG m c t) (blkAS m c (hr c) t) hacc
  by_cases h1 : t.val % 16 = 15
  · constructor
    · intro r z
      rw [outsAt0_C m c t h0 h1]; dsimp only
      exact hxs r z
    · intro r o
      rw [outsAt0_C m c t h0 h1]; dsimp only
      rw [soutC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (bX m c t) (bC m c t) (bCC m c t) (bSG m c t) (bAS m c t) (bW m c t) (bB m c t)]
      exact hstep r o
  · constructor
    · intro r z
      rw [outsAt0_B m c t h0 h1]; dsimp only
      exact hxs r z
    · intro r o
      rw [outsAt0_B m c t h0 h1]; dsimp only
      rw [soutB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (bX m c t) (bC m c t) (bCC m c t) (bSG m c t) (bAS m c t) (bW m c t) (bB m c t)]
      exact hstep r o

/-- By induction on the point. -/
theorem inv (c : Dev nD) : ∀ (n : ℕ) (h : n < cfg0.N), Inv m c n h := by
  intro n
  induction n using Nat.strong_induction_on with
  | _ n ih =>
    intro h
    by_cases h0 : n % 16 = 0
    · exact inv_A m hr c ⟨n, h⟩ h0
    · exact inv_BC m hr c ⟨n, h⟩ h0 (ih (n - 1) (by omega) _)

/-! ## The output block of a batch tile's last point -/

omit hr in
/-- With all 16384 centres taken in, the running total is the clusters' summed activations. -/
theorem total_eq_rbf (c : Dev nD) (b : Fin 4096) (p : Fin 512) :
    ∑ j ∈ Finset.range 16384, term m c b p j = Cert.Rbf.rbf (aX m c) (aC m c) (aL m c) (aN m c) b p := by
  rw [Finset.sum_range]
  unfold Cert.Rbf.rbf
  exact Finset.sum_congr rfl fun j _ => by unfold term; rw [dif_pos j.isLt]

/-- The last point of a batch tile leaves the layer's output for the tile's rows in the output block. -/
theorem out_last (c : Dev nD) (t : Fin cfg0.N) (h1 : t.val % 16 = 15) (r : Fin 1024) (o : Fin 512) :
    (outsAt0 m c t.val t.isLt).1 (ix2 r o)
      = Cert.Rbf.out (aX m c) (aC m c) (aL m c) (aN m c) (aW m c) (aB m c) (rowIx t.val r) o := by
  have h0 : ¬t.val % 16 = 0 := by omega
  have ih := inv m hr c (t.val - 1) (Nat.lt_of_le_of_lt (Nat.sub_le _ _) t.isLt)
  have hrow : ∀ r, rowIx (t.val - 1) r = rowIx t.val r := fun r => by
    unfold rowIx; congr 2; omega
  have hxs : ∀ (r : Fin 1024) (z : Fin 1), (outsAt0 m c (t.val - 1) (Nat.lt_of_le_of_lt (Nat.sub_le _ _) t.isLt)).2.2 (ix2 r z)
      = Cert.Rbf.xx (aX m c) (rowIx t.val r) := fun r z => by rw [ih.1 r z, hrow]
  have hacc : ∀ (r : Fin 1024) (o : Fin 512), (outsAt0 m c (t.val - 1) (Nat.lt_of_le_of_lt (Nat.sub_le _ _) t.isLt)).2.1 (ix2 r o)
      = ∑ j ∈ Finset.range (1024 * (t.val % 16)), term m c (rowIx t.val r) o j := fun r o => by
    rw [ih.2 r o, hrow]
    exact congrArg (fun k => ∑ j ∈ Finset.range k, term m c (rowIx t.val r) o j) (by omega)
  have hstep : ∀ (r : Fin 1024) (p : Fin 512),
      stepv (F := Ideal) (bX m c t) (outsAt0 m c (t.val - 1) (Nat.lt_of_le_of_lt (Nat.sub_le _ _) t.isLt)).2.2 (bC m c t) (bCC m c t) (bSG m c t) (bAS m c t)
        (outsAt0 m c (t.val - 1) (Nat.lt_of_le_of_lt (Nat.sub_le _ _) t.isLt)).2.1 (ix2 r p)
        = Cert.Rbf.rbf (aX m c) (aC m c) (aL m c) (aN m c) (rowIx t.val r) p := fun r p => by
    rw [stepv_apply m c t.val (bX m c t) _ (bC m c t) (bCC m c t) (bSG m c t) (bAS m c t) _
      (blkX m c t) hxs (blkC m c t) (blkCC m c t) (blkSG m c t) (blkAS m c (hr c) t) hacc r p, ← total_eq_rbf]
    exact congrArg (fun k => ∑ j ∈ Finset.range k, term m c (rowIx t.val r) p j) (by omega)
  rw [outsAt0_C m c t h0 h1]; dsimp only
  rw [outC7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (bX m c t) (bC m c t) (bCC m c t) (bSG m c t) (bAS m c t) (bW m c t) (bB m c t)]
  rw [pay3_apply]
  unfold Cert.Rbf.out
  rw [blkB m c t 0 o]
  exact congrArg (· + aB m c (ix1 o)) (Finset.sum_congr rfl fun p _ => by rw [hstep r p, blkW m c t o p])

/-! ## The result array -/

/-- What the last point of a batch tile writes back is the tile's block of the layer's output. -/
theorem flushed_eq (c : Dev nD) (t : Fin cfg0.N) (hf : (cfg0.win 7).flush t = true) :
    (dats m 0 c).flushed 7 t
      = ((cfg0.win 7).blk t).view.read (Elt Ideal) (Cert.Rbf.G (aX m c) (aC m c) (aL m c) (aN m c) (aW m c) (aB m c)) := by
  have h1 : t.val % 16 = 15 := (flush0_7 t).mp hf
  have hN : t.val < 64 := lt_of_lt_of_eq t.isLt N64
  obtain ⟨-, -, -, -, -, -, -, -, -, -, -, -, -, -, e0, e1⟩ := idx_facts t
  rw [flushed7]
  funext j
  obtain ⟨r, o, rfl⟩ : ∃ (r : Fin 1024) (o : Fin 512), j = ix2 r o := ⟨j 0, j 1, eq_ix2 j⟩
  rw [View.read_apply]
  show (outsAt0 m c t.val t.isLt).1 (ix2 r o) = Cert.Rbf.G (aX m c) (aC m c) (aL m c) (aN m c) (aW m c) (aB m c) (((cfg0.win 7).blk t).view.emb (ix2 r o))
  rw [out_last m hr c t h1 r o, ← Cert.Rbf.G_apply]
  refine congrArg _ ?_
  funext a; apply Fin.ext
  match a with
  | ⟨0, _⟩ => show (1024 * (t.val / 16) + r.val) % 4096 = win0_7.index t (0 : Fin 2) * 1024 + 1 * r.val; have := r.isLt; omega
  | ⟨1, _⟩ => show o.val = win0_7.index t (1 : Fin 2) * 512 + 1 * o.val; omega

omit hr in
/-- An index of the result array is in point `t`'s block iff each coordinate is in the block's range. -/
theorem mem_blk (t : Fin cfg0.N) (i : S4096x512.Idx) :
    i ∈ ((cfg0.win 7).blk t).view.set
      ↔ ∀ a : Fin 2, win0_7.index t a * S1024x512.size a ≤ (i a).val ∧ (i a).val < win0_7.index t a * S1024x512.size a + S1024x512.size a := by
  show i ∈ ((View.whole main_v10).slice (win0_7.rect t)).set ↔ _
  rw [View.set_slice_whole, Rect.mem_set_unit]
  exact Iff.rfl

omit hr in
/-- The four output blocks cover the result array: row i₀ is written by the last point of batch tile i₀ / 1024. -/
theorem cover (i : S4096x512.Idx) : ∃ t : Fin cfg0.N, (cfg0.win 7).flush t = true ∧ i ∈ ((cfg0.win 7).blk t).view.set := by
  have hi0 : (i 0).val < 4096 := (i 0).isLt
  have hi1 : (i 1).val < 512 := (i 1).isLt
  refine ⟨⟨16 * ((i 0).val / 1024) + 15, by rw [N64]; omega⟩, (flush0_7 _).mpr (by show (16 * ((i 0).val / 1024) + 15) % 16 = 15; omega), ?_⟩
  obtain ⟨-, -, -, -, -, -, -, -, -, -, -, -, -, -, e0, e1⟩ := idx_facts ⟨16 * ((i 0).val / 1024) + 15, by rw [N64]; omega⟩
  rw [mem_blk]
  intro a
  match a with
  | ⟨0, _⟩ =>
    show win0_7.index _ (0 : Fin 2) * 1024 ≤ (i 0).val ∧ (i 0).val < win0_7.index _ (0 : Fin 2) * 1024 + 1024
    rw [e0]; show (16 * ((i 0).val / 1024) + 15) / 16 * 1024 ≤ (i 0).val ∧ (i 0).val < (16 * ((i 0).val / 1024) + 15) / 16 * 1024 + 1024
    omega
  | ⟨1, _⟩ =>
    show win0_7.index _ (1 : Fin 2) * 512 ≤ (i 1).val ∧ (i 1).val < win0_7.index _ (1 : Fin 2) * 512 + 512
    rw [e1]; omega

/-- The result array after the run is the layer's output. -/
theorem final (c : Dev nD) :
    (dats m 0 c).arrAt 7 cfg0.N = Cert.Rbf.G (aX m c) (aC m c) (aL m c) (aN m c) (aW m c) (aB m c) :=
  (dats m 0 c).arrAt_eq_of_cover 7 _ (fun t hf => flushed_eq m hr c t hf) cover

/-- The kernel's run, read: the result array at the layer's output, the arguments unchanged. -/
theorem run : θ_run defs (onTc (τ := τ) (main (F := Ideal))) ⟨m, fun _ => 0, ρ⟩ fun r => ∀ c : Dev nD,
      r.2.mem ((c : Thread nD τ).loc main_v10) = Cert.Rbf.G (aX m c) (aC m c) (aL m c) (aN m c) (aW m c) (aB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m hr c), (h c).2⟩) (run_blocks m ρ)

end Cert.KernelIdeal.RbfValue

end
-- ==== Proof.LibSegmentScatter.lean ====
/-
  An accumulating scatter along axis 0, read at one element of its result over the extended reals.

  Two shapes that a segment sum lowers to. ROWS: the operand is `[B, D]`, the scatter indices a column `[N, 1]`, the
  updates `[N, D]`; update row `n` is added into operand row `idx n`, column by column. ELEMENTS: the operand is `[B]`,
  the scatter indices `[N, 1]`, the updates `[N]`; update `n` is added into element `idx n`. The index is read signed and
  not clamped, and an update whose index falls outside `[0, B)` is dropped. So the result at row `b` is the operand there
  plus the sum of the updates whose index is `b`.

  The dimension numbers are spelt field by field as a printed program's record is, so that record is one of these by `rfl`.
-/
import Idealize.ShloMosaic.PureOps.Ideal
import Idealize.ShloMosaic.Lib.ValueIdx
import Idealize.ShloMosaic.Lib.ValueIdxRank1

open scoped BigOperators

noncomputable section

namespace Idealize.ShloMosaic.SegmentScatter

open Idealize.ShloMosaic Idealize.ShloMosaic.ValueIdx

/-- The dimension numbers of a row scatter: operand `[B, D]`, scatter indices `[N, 1]`, updates `[N, D]`. -/
abbrev rowDims (B D N : Nat)
    (wf : ScatterDims.WF ⟨2, ![B, D]⟩ ⟨2, ![N, 1]⟩ ⟨2, ![N, D]⟩ [1] [0] [0] 1) :
    ScatterDims ⟨2, ![B, D]⟩ ⟨2, ![N, 1]⟩ ⟨2, ![N, D]⟩ where
  updateWindowDims := [1]
  insertedWindowDims := [0]
  scatterDimsToOperandDims := [0]
  indexVectorDim := 1
  wf := wf

/-! ### Rows: start, window and landing index of update `(n, d')` -/

section Rows
variable {B D N w : Nat} (wf : ScatterDims.WF ⟨2, ![B, D]⟩ ⟨2, ![N, 1]⟩ ⟨2, ![N, D]⟩ [1] [0] [0] 1)
  (idx : IVec ⟨2, ![N, 1]⟩ w)

/-- On axis 0 the window of update `(n, d')` starts at the signed value of scatter index `(n, 0)`. -/
theorem row_start0 (n : Fin N) (d' : Fin D) :
    (rowDims B D N wf).start (ix2 n d') idx 0 = (idx (ix2 n (0 : Fin 1))).toInt := by
  unfold ScatterDims.start
  rw [dif_pos (show (0 : Fin 2) ∈ (rowDims B D N wf).scatterDimsToOperandDims from List.mem_singleton.mpr rfl)]
  have hsi : (rowDims B D N wf).siIdx (ix2 n d') ⟨List.idxOf (0 : Fin 2) (rowDims B D N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- Axis 1 is not named by the scatter-dims-to-operand-dims map, so the window starts at `0` there. -/
theorem row_start1 (j : (⟨2, ![N, D]⟩ : Shape).Idx) :
    (rowDims B D N wf).start j idx 1 = 0 := by
  unfold ScatterDims.start
  rw [dif_neg (show (1 : Fin 2) ∉ ([0] : List (Fin 2)) by decide)]

/-- Axis 0 is an inserted window axis: the window coordinate there is `0`. -/
theorem row_window0 (j : (⟨2, ![N, D]⟩ : Shape).Idx) :
    (rowDims B D N wf).window j 0 = 0 := by
  unfold ScatterDims.window
  have h : (0 : Fin 2) ∉ (rowDims B D N wf).sKept := (show (0 : Fin 2) ∉ ([1] : List (Fin 2)) by decide)
  rw [dif_neg h]

/-- Axis 1 is the one kept axis, read by update window axis 1: the window coordinate of `(n, d')` is `d'`. -/
theorem row_window1 (n : Fin N) (d' : Fin D) :
    (rowDims B D N wf).window (ix2 n d') 1 = d'.val := by
  unfold ScatterDims.window
  have h : (1 : Fin 2) ∈ (rowDims B D N wf).sKept := (show (1 : Fin 2) ∈ ([1] : List (Fin 2)) by decide)
  rw [dif_pos h]
  rfl

/-- Update `(n, d')` lands at `(b, d)` exactly when its scatter index, read signed, is `b` and `d' = d`; the range
    conditions then hold because `b < B` and `d < D`. -/
theorem row_resultIdx?_eq_some_iff (n : Fin N) (d' : Fin D) (b : Fin B) (d : Fin D) :
    (rowDims B D N wf).resultIdx? (ix2 n d') idx = some (ix2 b d)
      ↔ (idx (ix2 n (0 : Fin 1))).toInt = (b.val : ℤ) ∧ d' = d := by
  unfold ScatterDims.resultIdx?
  constructor
  · intro h
    split at h
    · rename_i hc
      have hf := Option.some.inj h
      have h0 := congrArg (fun f => (f 0).val) hf
      have h1 := congrArg (fun f => (f 1).val) hf
      simp only [row_start0, row_start1, row_window0, row_window1] at h0 h1
      have hc0 := (hc 0).1
      rw [row_start0, row_window0] at hc0
      change ((idx (ix2 n (0 : Fin 1))).toInt + ((0 : ℕ) : ℤ)).toNat = b.val at h0
      change ((0 : ℤ) + (d'.val : ℤ)).toNat = d.val at h1
      refine ⟨by omega, Fin.ext (by omega)⟩
    · exact absurd h (by simp)
  · rintro ⟨ht, rfl⟩
    have hc : ∀ a, 0 ≤ (rowDims B D N wf).start (ix2 n d') idx a + (rowDims B D N wf).window (ix2 n d') a ∧
        (rowDims B D N wf).start (ix2 n d') idx a + (rowDims B D N wf).window (ix2 n d') a
          < (⟨2, ![B, D]⟩ : Shape).size a := by
      intro a
      match a with
      | ⟨0, _⟩ =>
        change 0 ≤ (rowDims B D N wf).start (ix2 n d') idx 0 + ((rowDims B D N wf).window (ix2 n d') 0 : ℕ) ∧
          (rowDims B D N wf).start (ix2 n d') idx 0 + ((rowDims B D N wf).window (ix2 n d') 0 : ℕ) < (B : ℤ)
        rw [row_start0, row_window0, ht]
        have := b.isLt
        omega
      | ⟨1, _⟩ =>
        change 0 ≤ (rowDims B D N wf).start (ix2 n d') idx 1 + ((rowDims B D N wf).window (ix2 n d') 1 : ℕ) ∧
          (rowDims B D N wf).start (ix2 n d') idx 1 + ((rowDims B D N wf).window (ix2 n d') 1 : ℕ) < (D : ℤ)
        rw [row_start1, row_window1]
        have := d'.isLt
        omega
    rw [dif_pos hc]
    congr 1
    funext a; refine Fin.ext ?_
    match a with
    | ⟨0, _⟩ =>
      change ((rowDims B D N wf).start (ix2 n d') idx 0 + ((rowDims B D N wf).window (ix2 n d') 0 : ℕ)).toNat = b.val
      rw [row_start0, row_window0, ht]; omega
    | ⟨1, _⟩ =>
      change ((rowDims B D N wf).start (ix2 n d') idx 1 + ((rowDims B D N wf).window (ix2 n d') 1 : ℕ)).toNat = d'.val
      rw [row_start1, row_window1]; omega

end Rows

/-- A row scatter-add read at `(b, d)`: the operand there plus column `d` of every update row whose index is `b`. -/
theorem rowScatterAdd_apply {B D N w : Nat}
    (wf : ScatterDims.WF ⟨2, ![B, D]⟩ ⟨2, ![N, 1]⟩ ⟨2, ![N, D]⟩ [1] [0] [0] 1)
    (x : (⟨2, ![B, D]⟩ : Shape).Idx → EReal) (idx : IVec ⟨2, ![N, 1]⟩ w) (upd : (⟨2, ![N, D]⟩ : Shape).Idx → EReal)
    (b : Fin B) (d : Fin D) :
    Ideal.hostScatterAdd (rowDims B D N wf) x idx upd (ix2 b d)
      = x (ix2 b d) + ∑ n : Fin N, if (idx (ix2 n (0 : Fin 1))).toInt = (b.val : ℤ) then upd (ix2 n d) else 0 := by
  unfold Ideal.hostScatterAdd
  congr 1
  rw [Finset.sum_filter]
  refine (sum_idx2 _).trans ?_
  refine Finset.sum_congr rfl fun n _ => ?_
  simp only [row_resultIdx?_eq_some_iff]
  by_cases ht : (idx (ix2 n (0 : Fin 1))).toInt = (b.val : ℤ)
  · simp only [ht, true_and, if_true]
    rw [Finset.sum_ite_eq' Finset.univ d (fun d' => upd (ix2 n d'))]
    simp
  · simp only [ht, false_and, if_false]
    exact Finset.sum_const_zero

/-- The dimension numbers of an element scatter: operand `[B]`, scatter indices `[N, 1]`, updates `[N]`. -/
abbrev elemDims (B N : Nat)
    (wf : ScatterDims.WF ⟨1, ![B]⟩ ⟨2, ![N, 1]⟩ ⟨1, ![N]⟩ [] [0] [0] 1) :
    ScatterDims ⟨1, ![B]⟩ ⟨2, ![N, 1]⟩ ⟨1, ![N]⟩ where
  updateWindowDims := []
  insertedWindowDims := [0]
  scatterDimsToOperandDims := [0]
  indexVectorDim := 1
  wf := wf

/-! ### Elements: start, window and landing index of update `n` -/

section Elements
variable {B N w : Nat} (wf : ScatterDims.WF ⟨1, ![B]⟩ ⟨2, ![N, 1]⟩ ⟨1, ![N]⟩ [] [0] [0] 1)
  (idx : IVec ⟨2, ![N, 1]⟩ w)

/-- The window of update `n` starts at the signed value of scatter index `(n, 0)`. -/
theorem elem_start0 (n : Fin N) :
    (elemDims B N wf).start (ix1 n) idx 0 = (idx (ix2 n (0 : Fin 1))).toInt := by
  unfold ScatterDims.start
  rw [dif_pos (show (0 : Fin 1) ∈ (elemDims B N wf).scatterDimsToOperandDims from List.mem_singleton.mpr rfl)]
  have hsi : (elemDims B N wf).siIdx (ix1 n) ⟨List.idxOf (0 : Fin 1) (elemDims B N wf).scatterDimsToOperandDims,
      List.idxOf_lt_length_iff.2 (List.mem_singleton.mpr rfl)⟩ = ix2 n (0 : Fin 1) := by
    funext a; refine Fin.ext ?_
    match a with
    | ⟨0, _⟩ => rfl
    | ⟨1, _⟩ => rfl
  rw [hsi]

/-- The operand's one axis is an inserted window axis: the window coordinate is `0`. -/
theorem elem_window0 (j : (⟨1, ![N]⟩ : Shape).Idx) :
    (elemDims B N wf).window j 0 = 0 := by
  unfold ScatterDims.window
  have h : (0 : Fin 1) ∉ (elemDims B N wf).sKept := (show (0 : Fin 1) ∉ ([] : List (Fin 1)) from List.not_mem_nil)
  rw [dif_neg h]

/-- Update `n` lands at `b` exactly when its scatter index, read signed, is `b`. -/
theorem elem_resultIdx?_eq_some_iff (n : Fin N) (b : Fin B) :
    (elemDims B N wf).resultIdx? (ix1 n) idx = some (ix1 b)
      ↔ (idx (ix2 n (0 : Fin 1))).toInt = (b.val : ℤ) := by
  unfold ScatterDims.resultIdx?
  constructor
  · intro h
    split at h
    · rename_i hc
      have hf := Option.some.inj h
      have h0 := congrArg (fun f => (f 0).val) hf
      have hc0 := (hc 0).1
      rw [elem_start0, elem_window0] at hc0
      simp only [elem_start0, elem_window0] at h0
      change ((idx (ix2 n (0 : Fin 1))).toInt + ((0 : ℕ) : ℤ)).toNat = b.val at h0
      omega
    · exact absurd h (by simp)
  · intro ht
    have hc : ∀ a, 0 ≤ (elemDims B N wf).start (ix1 n) idx a + (elemDims B N wf).window (ix1 n) a ∧
        (elemDims B N wf).start (ix1 n) idx a + (elemDims B N wf).window (ix1 n) a
          < (⟨1, ![B]⟩ : Shape).size a := by
      intro a
      match a with
      | ⟨0, _⟩ =>
        change 0 ≤ (elemDims B N wf).start (ix1 n) idx 0 + ((elemDims B N wf).window (ix1 n) 0 : ℕ) ∧
          (elemDims B N wf).start (ix1 n) idx 0 + ((elemDims B N wf).window (ix1 n) 0 : ℕ) < (B : ℤ)
        rw [elem_start0, elem_window0, ht]
        have := b.isLt
        omega
    rw [dif_pos hc]
    congr 1
    funext a; refine Fin.ext ?_
    match a with
    | ⟨0, _⟩ =>
      change ((elemDims B N wf).start (ix1 n) idx 0 + ((elemDims B N wf).window (ix1 n) 0 : ℕ)).toNat = b.val
      rw [elem_start0, elem_window0, ht]; omega

end Elements

/-- An element scatter-add read at `b`: the operand there plus every update whose index is `b`. -/
theorem elemScatterAdd_apply {B N w : Nat}
    (wf : ScatterDims.WF ⟨1, ![B]⟩ ⟨2, ![N, 1]⟩ ⟨1, ![N]⟩ [] [0] [0] 1)
    (x : (⟨1, ![B]⟩ : Shape).Idx → EReal) (idx : IVec ⟨2, ![N, 1]⟩ w) (upd : (⟨1, ![N]⟩ : Shape).Idx → EReal)
    (b : Fin B) :
    Ideal.hostScatterAdd (elemDims B N wf) x idx upd (ix1 b)
      = x (ix1 b) + ∑ n : Fin N, if (idx (ix2 n (0 : Fin 1))).toInt = (b.val : ℤ) then upd (ix1 n) else 0 := by
  unfold Ideal.hostScatterAdd
  congr 1
  rw [Finset.sum_filter]
  refine (Equiv.sum_comp (idxEquiv1 (n := N)).symm _).symm.trans ?_
  refine Finset.sum_congr rfl fun n _ => ?_
  change (if (elemDims B N wf).resultIdx? (ix1 n) idx = some (ix1 b) then upd (ix1 n) else 0) = _
  simp only [elem_resultIdx?_eq_some_iff]

end Idealize.ShloMosaic.SegmentScatter

end
-- ==== Proof.RefValue.lean ====
/-
  The reference program's result, entry by entry over the extended reals, is the layer's function `Cert.Rbf.G` of the six
  arguments. The reference scatters the activations (transposed) into 512 cluster rows by the cluster numbers read
  signed, an out-of-range number contributing nothing; it doubles the batch rows before the inner products, which over
  the extended reals is twice the inner product since 2 is finite and nonnegative; and it negates where the kernel
  subtracts from zero.

  The stages are read bottom-up, each at an index given by its coordinates: the two squared norms (each a sum with
  an initial zero), the doubled inner product, the inverse squared width, the activation of a centre on a batch row, the
  summed activation of a cluster (the scatter into a zero array: zero plus the selected sum), and last the linear layer
  with the weight matrix transposed plus the broadcast bias.
-/
import proofs.«429590_j33217277067568_2_alg».proof.Proof.Gen.ReferenceIdeal.Read
import proofs.«429590_j33217277067568_2_alg».proof.Proof.Spec
import proofs.«429590_j33217277067568_2_alg».proof.Proof.Algebra
import proofs.«429590_j33217277067568_2_alg».proof.Proof.LibSegmentScatter
import Idealize.ShloMosaic.PureOps.Ideal.Laws
import Idealize.ShloMosaic.Lib.ValueIdx
import Idealize.ShloMosaic.Lib.Pipeline.Value

set_option maxRecDepth 16384

open scoped BigOperators

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx

section Stages
variable (x0 : FVec Ideal S4096x128 .f32) (x1 : FVec Ideal S16384x128 .f32) (x2 : FVec Ideal S16384 .f32)
  (x3 : IVec S16384 32) (x4 : FVec Ideal S512x512 .f32) (x5 : FVec Ideal S512 .f32)

/-- The broadcast row norms at `(b, j)`: zero plus the sum of the squares of batch row `b`. -/
theorem sqnorm_rows_at (b : Fin 4096) (j : Fin 16384) :
    val_main_v6 (F := Ideal) x0 (ix2 b j) = Cert.Rbf.xx x0 b := by
  rw [val_main_v6_apply, val_main_v2_apply, val_main_v1_apply]
  simp only [val_main_cst_apply, val_main_v0_apply, Ideal.ofBits_def, Ideal.ofBits_zero_f32, zero_add, Ideal.mulf_def]
  unfold Cert.Rbf.xx
  refine Finset.sum_congr rfl fun k _ => ?_
  have e : idx_main_v1 (idx_main_v2 (idx_main_v6 (ix2 b j))) k = ix2 b k :=
    funext fun a => Fin.ext (by match a with | ⟨0, _⟩ => rfl | ⟨1, _⟩ => rfl)
  rw [e]

/-- The broadcast centre norms at `(b, j)`: zero plus the sum of the squares of centre `j`. -/
theorem sqnorm_centres_at (b : Fin 4096) (j : Fin 16384) :
    val_main_v7 (F := Ideal) x1 (ix2 b j) = Cert.Rbf.cc x1 j := by
  rw [val_main_v7_apply, val_main_v5_apply, val_main_v4_apply]
  simp only [val_main_cst_0_apply, val_main_v3_apply, Ideal.ofBits_def, Ideal.ofBits_zero_f32, zero_add, Ideal.mulf_def]
  unfold Cert.Rbf.cc
  refine Finset.sum_congr rfl fun k _ => ?_
  have e : idx_main_v4 (idx_main_v5 (idx_main_v7 (ix2 b j))) k = ix2 j k :=
    funext fun a => Fin.ext (by match a with | ⟨0, _⟩ => rfl | ⟨1, _⟩ => rfl)
  rw [e]

/-- The inner products of the doubled batch rows with the transposed centres: twice the inner product. -/
theorem doubled_dot_at (b : Fin 4096) (j : Fin 16384) :
    val_main_v12 (F := Ideal) x0 x1 (ix2 b j) = Cert.Rbf.two * Cert.Rbf.dot x0 x1 b j := by
  rw [val_main_v12_apply]
  unfold Cert.Rbf.dot
  rw [Cert.Rbf.two_mul_sum]
  refine Finset.sum_congr rfl fun k _ => ?_
  rw [val_main_v10_apply, val_main_v9_apply, val_main_cst_1_apply, val_main_v11_apply]
  have el : lidx_main_v12 (ix2 b j) k = ix2 b k :=
    funext fun a => Fin.ext (by match a with | ⟨0, _⟩ => rfl | ⟨1, _⟩ => rfl)
  have er : idx_main_v11 (ridx_main_v12 (ix2 b j) k) = ix2 j k :=
    funext fun a => Fin.ext (by match a with | ⟨0, _⟩ => rfl | ⟨1, _⟩ => rfl)
  rw [el, er]
  rfl

/-- The broadcast inverse squared widths at `(b, j)`. -/
theorem width_at (b : Fin 4096) (j : Fin 16384) :
    val_main_v21 (F := Ideal) x2 (ix2 b j) = Cert.Rbf.sig2 x2 j := by
  rw [val_main_v21_apply, val_main_v20_apply, val_main_v19_apply, val_main_v18_apply, val_main_v17_apply,
    val_main_cst_3_apply]
  have e : idx_main_v20 (idx_main_v21 (ix2 b j)) = ix1 j :=
    funext fun a => Fin.ext (by match a with | ⟨0, _⟩ => rfl)
  rw [e]
  rfl

/-- The activation of centre `j` on batch row `b`. -/
theorem phi_at (b : Fin 4096) (j : Fin 16384) :
    val_main_v23 (F := Ideal) x0 x1 x2 (ix2 b j) = Cert.Rbf.phi x0 x1 x2 b j := by
  rw [val_main_v23_apply, val_main_v22_apply, val_main_v16_apply, val_main_v15_apply, val_main_v13_apply,
    val_main_v8_apply, val_main_v14_apply, val_main_cst_2_apply, sqnorm_rows_at, sqnorm_centres_at, doubled_dot_at,
    width_at]
  simp only [Ideal.hostUnary_exp_def, Ideal.mulf_def, Ideal.hostNegf_def, Ideal.negf_def, Ideal.maximumf_def,
    Ideal.subf_def, Ideal.addf_def, Ideal.ofBits_def, Ideal.ofBits_zero_f32]
  rfl

/-- The scattered stage at `(p, b)`: zero plus the activations of the centres whose cluster number is `p`. -/
theorem rbf_at (p : Fin 512) (b : Fin 4096) :
    val_main_v27 (F := Ideal) x0 x1 x2 x3 (ix2 p b) = Cert.Rbf.rbf x0 x1 x2 x3 b p := by
  unfold val_main_v27
  simp only [Host.scatterAdd, Ideal.hostScatterAdd_def]
  refine (SegmentScatter.rowScatterAdd_apply (B := 512) (D := 4096) (N := 16384)
    Facts₀.scatter_S512x4096_S16384x1_S16384x4096_1_0_0_1_wf (val_main_v25 (F := Ideal)) (val_main_v26 (F := Ideal) x3)
    (val_main_v24 (F := Ideal) x0 x1 x2) p b).trans ?_
  rw [val_main_v25_apply, val_main_cst_4_apply, Ideal.ofBits_def, Ideal.ofBits_zero_f32, zero_add]
  unfold Cert.Rbf.rbf
  refine Finset.sum_congr rfl fun n _ => ?_
  rw [val_main_v26_apply, val_main_v24_apply]
  have e1 : idx_main_v26 (ix2 n (0 : Fin 1)) = ix1 n :=
    funext fun a => Fin.ext (by match a with | ⟨0, _⟩ => rfl)
  have e2 : idx_main_v24 (ix2 n b) = ix2 b n :=
    funext fun a => Fin.ext (by match a with | ⟨0, _⟩ => rfl | ⟨1, _⟩ => rfl)
  rw [e1, e2, phi_at]

end Stages

/-- The reference's last stage is the layer's function of the arguments. -/
theorem ref_eq_G (x0 : FVec Ideal S4096x128 .f32) (x1 : FVec Ideal S16384x128 .f32) (x2 : FVec Ideal S16384 .f32)
    (x3 : IVec S16384 32) (x4 : FVec Ideal S512x512 .f32) (x5 : FVec Ideal S512 .f32) :
    val_main_v33 (F := Ideal) x0 x1 x2 x3 x4 x5 = Cert.Rbf.G x0 x1 x2 x3 x4 x5 := by
  funext i
  obtain ⟨b, o, rfl⟩ : ∃ (b : Fin 4096) (o : Fin 512), i = ix2 b o := ⟨i 0, i 1, eq_ix2 i⟩
  rw [Cert.Rbf.G_apply, val_main_v33_apply, val_main_v30_apply, val_main_v32_apply, val_main_v31_apply, Ideal.addf_def]
  unfold Cert.Rbf.out
  refine congrArg₂ (· + ·) ?_ ?_
  · refine Finset.sum_congr rfl fun p _ => ?_
    rw [val_main_v28_apply, val_main_v29_apply]
    have e1 : idx_main_v28 (lidx_main_v30 (ix2 b o) p) = ix2 p b :=
      funext fun a => Fin.ext (by match a with | ⟨0, _⟩ => rfl | ⟨1, _⟩ => rfl)
    have e2 : idx_main_v29 (ridx_main_v30 (ix2 b o) p) = ix2 o p :=
      funext fun a => Fin.ext (by match a with | ⟨0, _⟩ => rfl | ⟨1, _⟩ => rfl)
    rw [e1, e2, rbf_at]
  · have e : idx_main_v31 (idx_main_v32 (ix2 b o)) = ix1 o :=
      funext fun a => Fin.ext (by match a with | ⟨0, _⟩ => rfl)
    rw [e]

end Cert.ReferenceIdeal.RefValue

end
-- ==== Proof.lean ====
/-
  The certificate's five claims for the radial-basis layer kernel against its jnp reference.

  The three frames are the generated ones (the reference's is its generated run with the result dropped). The ideal
  pass rewrote nothing, so the idealization claim is trivial. For the value claim both idealized programs end at one
  function of the six arguments, `Cert.Rbf.G`: the kernel's result array by the induction over its 64 grid points
  (Proof/KernelValue.lean), the reference's by reading its 40 host operations at an entry (Proof/RefValue.lean). The
  kernel clamps the cluster numbers into [0, 511] where the reference drops an out-of-range one; the precondition
  says every cluster number is in [0, 512), where the clamp does nothing (Proof/HostSide.lean `nid_range`). No
  finiteness of the float inputs is used: the only rearrangement of a product over a sum has the finite factor 2.
-/
import proofs.«429590_j33217277067568_2_alg».proof.Defs
import proofs.«429590_j33217277067568_2_alg».proof.Proof.Gen.Kernel
import proofs.«429590_j33217277067568_2_alg».proof.Proof.Gen.Kernel.Skeleton
import proofs.«429590_j33217277067568_2_alg».proof.Proof.Gen.Kernel.Launch
import proofs.«429590_j33217277067568_2_alg».proof.Proof.Gen.Kernel.Points
import proofs.«429590_j33217277067568_2_alg».proof.Proof.Gen.Kernel.Frame
import proofs.«429590_j33217277067568_2_alg».proof.Proof.Gen.KernelIdeal
import proofs.«429590_j33217277067568_2_alg».proof.Proof.Gen.KernelIdeal.Skeleton
import proofs.«429590_j33217277067568_2_alg».proof.Proof.Gen.KernelIdeal.Launch
import proofs.«429590_j33217277067568_2_alg».proof.Proof.Gen.KernelIdeal.Points
import proofs.«429590_j33217277067568_2_alg».proof.Proof.Gen.KernelIdeal.Frame
import proofs.«429590_j33217277067568_2_alg».proof.Proof.Gen.ReferenceIdeal
import proofs.«429590_j33217277067568_2_alg».proof.Proof.Gen.Pre_finite_inputs
import proofs.«429590_j33217277067568_2_alg».proof.Proof.Gen.KernelIdeal.Value
import proofs.«429590_j33217277067568_2_alg».proof.Proof.Gen.ReferenceIdeal.Run
import proofs.«429590_j33217277067568_2_alg».proof.Proof.Gen.ReferenceIdeal.Read
import proofs.«429590_j33217277067568_2_alg».proof.Proof.Spec
import proofs.«429590_j33217277067568_2_alg».proof.Proof.HostSide
import proofs.«429590_j33217277067568_2_alg».proof.Proof.KernelValue
import proofs.«429590_j33217277067568_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the six arguments, with every cluster number in [0, 512): the kernel's result array and
    the reference's result are both the layer's function of the arguments. -/
theorem algebraic : Cert.algebraic_KernelIdeal_ReferenceIdeal := by
  intro m ρ m' ρ' hpre hagree
  have hr := fun c j => Cert.KernelIdeal.HostSide.nid_range m hpre c j
  refine ⟨_, Cert.KernelIdeal.RbfValue.run m ρ hr, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v33_eq _ _ _ _ _ _).trans (Cert.ReferenceIdeal.RefValue.ref_eq_G _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
